-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x1x1 : Shape := ⟨3, ![4, 1, 1]⟩
abbrev S1x1024x3 : Shape := ⟨3, ![1, 1024, 3]⟩
abbrev S1x1x1 : Shape := ⟨3, ![1, 1, 1]⟩
abbrev S1024x1 : Shape := ⟨2, ![1024, 1]⟩
abbrev S1x1 : Shape := ⟨2, ![1, 1]⟩
abbrev S1024x3 : Shape := ⟨2, ![1024, 3]⟩
abbrev S1024 : Shape := ⟨1, ![1024]⟩
abbrev S1x1024 : Shape := ⟨2, ![1, 1024]⟩
abbrev S3x1024 : Shape := ⟨2, ![3, 1024]⟩
abbrev S1024x1024 : Shape := ⟨2, ![1024, 1024]⟩
abbrev S1 : Shape := ⟨1, ![1]⟩
abbrev S4 : Shape := ⟨1, ![4]⟩

abbrev nBuf : Space → Nat
  | .hbm => 7
  | .vmem => 16
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x1x1, .f32⟩
  | .hbm, ⟨3, _⟩ => ⟨S4, .f32⟩
  | .hbm, ⟨4, _⟩ => ⟨S4x1x1, .f32⟩
  | .hbm, ⟨5, _⟩ => ⟨S4, .f32⟩
  | .hbm, ⟨6, _⟩ => ⟨S4, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x1, .f32⟩
  | .local _ .vmem, ⟨5, _⟩ => ⟨S1x1x1, .f32⟩
  | .local _ .vmem, ⟨6, _⟩ => ⟨S1024x1, .f32⟩
  | .local _ .vmem, ⟨7, _⟩ => ⟨S1x1, .f32⟩
  | .local _ .vmem, ⟨8, _⟩ => ⟨S1x1024x3, .f32⟩
  | .local _ .vmem, ⟨9, _⟩ => ⟨S1x1024x3, .f32⟩
  | .local _ .vmem, ⟨10, _⟩ => ⟨S1x1024x3, .f32⟩
  | .local _ .vmem, ⟨11, _⟩ => ⟨S1x1024x3, .f32⟩
  | .local _ .vmem, ⟨12, _⟩ => ⟨S1x1x1, .f32⟩
  | .local _ .vmem, ⟨13, _⟩ => ⟨S1x1x1, .f32⟩
  | .local _ .vmem, ⟨14, _⟩ => ⟨S1024x1, .f32⟩
  | .local _ .vmem, ⟨15, _⟩ => ⟨S1x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![4, 8, 8], ![false, false, false]⟩

def k0_cond4 (i : grid0.Coords) : BitVec 1 :=
  let arg1 : BitVec 32 := BitVec.ofNat 32 (i 1).val
  let c7_i32_19 : BitVec 32 := 7#32
  let v41 : BitVec 1 := Scalar.cmpi .eq arg1 c7_i32_19
  let arg2 : BitVec 32 := BitVec.ofNat 32 (i 2).val
  let c7_i32_20 : BitVec 32 := 7#32
  let v42 : BitVec 1 := Scalar.cmpi .eq arg2 c7_i32_20
  let v43 : BitVec 1 := Scalar.andi v41 v42
  let v44 : BitVec 32 := Scalar.extui v43
  let c0_i32_21 : BitVec 32 := 0#32
  let v45 : BitVec 1 := Scalar.cmpi .ne v44 c0_i32_21
  v45

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev grid1 : Pipeline.Grid := ⟨3, ![4, 8, 8], ![false, false, false]⟩

def k1_cond4 (i : grid1.Coords) : BitVec 1 :=
  let arg1 : BitVec 32 := BitVec.ofNat 32 (i 1).val
  let c7_i32_19 : BitVec 32 := 7#32
  let v41 : BitVec 1 := Scalar.cmpi .eq arg1 c7_i32_19
  let arg2 : BitVec 32 := BitVec.ofNat 32 (i 2).val
  let c7_i32_20 : BitVec 32 := 7#32
  let v42 : BitVec 1 := Scalar.cmpi .eq arg2 c7_i32_20
  let v43 : BitVec 1 := Scalar.andi v41 v42
  let v44 : BitVec 32 := Scalar.extui v43
  let c0_i32_21 : BitVec 32 := 0#32
  let v45 : BitVec 1 := Scalar.cmpi .ne v44 c0_i32_21
  v45

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  bitsLt_bf16_f32 : FTy.bits .bf16 < FTy.bits .f32
  reduces_S1024x3_S1024 : S1024x3.Reduces [1] S1024
  shapeCasts_S1024_S1024x1 : S1024.ShapeCasts S1024x1
  shapeCasts_S1024_S1x1024 : S1024.ShapeCasts S1x1024
  transposes_S1024x3_p1_0_S3x1024 : S1024x3.Transposes [1, 0] S3x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1_S1 : S1024x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S4x1x1_S4 : S4x1x1.ShapeCasts S4
  dot_S1024x3_S3x1024_S1024x1024_1_0_0_1_n_n_wf : DotDims.WF S1024x3 S3x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S4x1x1.size a
  hwx0_2 : ∀ i : grid0.Coords, EltTy.bits .f32 = 32 ∨ (Rect.block (s := S4x1x1) S1x1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x3.size a ≤ S4x8192x3.size a
  hwx1_0 : ∀ i : grid1.Coords, EltTy.bits .f32 = 32 ∨ (Rect.block (s := S4x8192x3) S1x1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x3.size a ≤ S4x8192x3.size a
  hwx1_1 : ∀ i : grid1.Coords, EltTy.bits .f32 = 32 ∨ (Rect.block (s := S4x8192x3) S1x1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1.size a ≤ S4x1x1.size a
  hwx1_2 : ∀ i : grid1.Coords, EltTy.bits .f32 = 32 ∨ (Rect.block (s := S4x1x1) S1x1x1.size (cc1_transform_2 i) (hinb1_2 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond4 i == 1#1) | ⟨_ + 3, h⟩ => absurd h (Nat.not_lt.2 (Nat.le_add_left _ _))

abbrev win1_0 : Pipeline.Window sig grid1 :=
  Pipeline.Window.ofSpec (Memref.whole main_arg1) S1x1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond4 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4, .f32⟩
  | .hbm, ⟨26, _⟩ => ⟨S_, .f32⟩
  | .hbm, ⟨27, _⟩ => ⟨S4x8192, .f32⟩
  | .hbm, ⟨28, _⟩ => ⟨S_, .f32⟩
  | .hbm, ⟨29, _⟩ => ⟨S4, .f32⟩
  | .hbm, ⟨30, _⟩ => ⟨S4, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  reducesTo_S4x8192x8192_S4x8192_d1 : S4x8192x8192.ReducesTo [1] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Step0.lean ====
/-
  One grid point of the first directed pass, as a function. The grid is (batch b, row tile n, column tile m),
  4 x 8 x 8, walked with m fastest: point t is b = t / 64, n = (t / 8) % 8, m = t % 8. The kernel keeps two
  values between points: a column of 1024 running row minima, and one running maximum. At a point it
    resets the running maximum to -inf when n = 0 and m = 0 (t % 64 = 0),
    resets the running minima to +inf when m = 0 (t % 8 = 0),
    lowers each row's running minimum by the smallest distance from that row's point to the 1024 points of column tile m,
    at the last column tile (t % 8 = 7) raises the running maximum by the largest of the 1024 running minima,
    and at the batch's last point (t % 64 = 63) stores the running maximum as the batch's result.
  `step` is that update of the pair (running minima, running maximum); the arithmetic is the generated payloads'.
-/
import proofs.«107174_j11381663334571_1_alg».proof.Proof.Gen.KernelIdeal.Launch
import proofs.«107174_j11381663334571_1_alg».proof.Proof.Gen.KernelIdeal.Skeleton
import proofs.«107174_j11381663334571_1_alg».proof.Proof.Gen.KernelIdeal.Points

set_option maxRecDepth 16384

noncomputable section

namespace Cert.KernelIdeal.Pass0

open Idealize.ShloMosaic Idealize.SL.Sem Cert.KernelIdeal Cert.KernelIdeal.Gen

variable {F : FTy → Type} [FloatOps F]

/-- n = 0 and m = 0: the running maximum is reset. -/
abbrev cFirst (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
/-- m = 0: the running minima are reset. -/
abbrev cCol0 (i : grid0.Coords) : Prop :=
  Scalar.cmpi .ne (Scalar.extui (Scalar.cmpi .eq (BitVec.ofNat 32 (i 2).val) 0#32)) 0#32 = 1#1
/-- m = 7: the row tile is finished and its largest running minimum joins the running maximum. -/
abbrev cColL (i : grid0.Coords) : Prop :=
  Scalar.cmpi .ne (Scalar.extui (Scalar.cmpi .eq (BitVec.ofNat 32 (i 2).val) 7#32)) 0#32 = 1#1
/-- n = 7 and m = 7: the batch is finished and its result is stored. -/
abbrev cLast (i : grid0.Coords) : Prop := k0_cond4 i = 1#1

theorem hFirst : ∀ t : Fin cfg0.N, cFirst (grid0.coords t) ↔ t.val % 64 = 0 :=
  (by decide +kernel : ∀ t : Fin grid0.N, cFirst (grid0.coords t) ↔ t.val % 64 = 0)
theorem hCol0 : ∀ t : Fin cfg0.N, cCol0 (grid0.coords t) ↔ t.val % 8 = 0 :=
  (by decide +kernel : ∀ t : Fin grid0.N, cCol0 (grid0.coords t) ↔ t.val % 8 = 0)
theorem hColL : ∀ t : Fin cfg0.N, cColL (grid0.coords t) ↔ t.val % 8 = 7 :=
  (by decide +kernel : ∀ t : Fin grid0.N, cColL (grid0.coords t) ↔ t.val % 8 = 7)
theorem hLast : ∀ t : Fin cfg0.N, cLast (grid0.coords t) ↔ t.val % 64 = 63 :=
  (by decide +kernel : ∀ t : Fin grid0.N, cLast (grid0.coords t) ↔ t.val % 64 = 63)

/-- The output window is idle exactly where the batch is not finished, and is written back exactly where it is. -/
theorem idle_iff : ∀ t : Fin cfg0.N, cfg0.idle 2 (grid0.coords t) = true ↔ ¬ cLast (grid0.coords t) :=
  (by decide +kernel : ∀ t : Fin grid0.N, cfg0.idle 2 (grid0.coords t) = true ↔ ¬ cLast (grid0.coords t))
theorem live0 : ∀ t : Fin cfg0.N, cfg0.idle 0 (grid0.coords t) = false := by decide +kernel
theorem live1 : ∀ t : Fin cfg0.N, cfg0.idle 1 (grid0.coords t) = false := by decide +kernel
theorem noFlush_of_not_last : ∀ t : Fin cfg0.N, ¬ cLast (grid0.coords t) → (cfg0.win 2).flush t = false := by decide +kernel

/-- The running minima after a point, from the two blocks and the pair before it. -/
def stepMin (i : grid0.Coords) (x0 x1 : Vec F S1x1024x3 .f32) (s6 : Vec F S1024x1 .f32) : Vec F S1024x1 .f32 :=
  k0_pay1 (k0_pay6 x0 x1 (if cCol0 i then k0_pay5 else s6))

/-- The running maximum after a point. -/
def stepMax (i : grid0.Coords) (x0 x1 : Vec F S1x1024x3 .f32) (s6 : Vec F S1024x1 .f32) (s7 : Vec F S1x1 .f32) : Vec F S1x1 .f32 :=
  if cColL i then k0_pay2 (stepMin i x0 x1 s6) (if cFirst i then k0_pay4 else s7) else (if cFirst i then k0_pay4 else s7)

/-- What the output block holds after a point: the running maximum where the batch is finished, else what it held. -/
def stepOut (i : grid0.Coords) (x0 x1 : Vec F S1x1024x3 .f32) (s6 : Vec F S1024x1 .f32) (s7 : Vec F S1x1 .f32)
    (o : Vec F S1x1x1 .f32) : Vec F S1x1x1 .f32 :=
  if cLast i then k0_pay3 (stepMax i x0 x1 s6 s7) else o

end Cert.KernelIdeal.Pass0

end
-- ==== Proof.Body0.lean ====
/-
  The body of the first directed pass at one grid point, as a triple: on whole memrefs holding the two input blocks,
  the output block, the running minima and the running maximum, the kernel function runs without fault and leaves
  the inputs as they were and the other three at what `Pass0.stepOut`, `stepMin`, `stepMax` say. One statement for
  every point: the four conditions on the grid coordinates sit inside the step functions.
-/
import proofs.«107174_j11381663334571_1_alg».proof.Proof.Step0
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

private theorem hz2 : (![0, 0] : Fin 2 → Nat) = fun _ => 0 := funext fun a => by fin_cases a <;> rfl
private theorem hz3 : (![0, 0, 0] : Fin 3 → Nat) = fun _ => 0 := funext fun a => by fin_cases a <;> rfl

section whole
variable {Val : EltTy → Type} [∀ e, Nonempty (Val e)] {S : Shape} {e : EltTy} {sig' : RefSig} {κ : Kind} {sp : Space}

/-- A list of stores whose last went through the whole-shape rectangle covers the shape. -/
private theorem cover_cons_whole {off : Fin S.rank → Nat} (h : off = fun _ => 0) (inb : ∀ a, off a + S.size a ≤ S.size a)
    (w : S.Idx → Val e) (L : List (View.Piece Val S e)) (y : S.Idx) :
    ∃ p ∈ ((⟨Rect.unit off S.size inb, w⟩ : View.Piece Val S e) :: L), y ∈ p.1.set :=
  ⟨⟨Rect.unit off S.size inb, w⟩, List.mem_cons_self, View.mem_set_unit_zero h inb y⟩

/-- Whatever was stored before, a buffer whose last store went through the whole-shape rectangle reads that
    store's payload. -/
private theorem read_writes_cons_whole (v : View sig' κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (cover_cons_whole h inb w L)).trans (View.canon_cons_unit_zero h inb w L)

/-- A load through the whole-shape rectangle after such a store reads the payload too. -/
private theorem readCov_cons_whole (v : View sig' κ sp S e) {off : Fin S.rank → Nat}
    (h : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w :=
  (View.readCov_eq_canon_ld v _ (Rect.unit off S.size inb) (cover_cons_whole h inb w L)).trans
    ((congrArg (fun X => View.ld X (Rect.unit off S.size inb)) (View.canon_cons_unit_zero h inb w L)).trans
      (View.ld_unit_zero h inb w))

end whole

/-- What a buffer reads after the run: as it was if nothing was stored, else the last whole-buffer store's payload,
    each load inside it read the same way. -/
local macro "read_back" : tactic =>
  `(tactic| (sl_unfold_words; simp only [read_writes_cons_whole (S := S1x1) _ _ hz2, read_writes_cons_whole (S := S1024x1) _ _ hz2,
         read_writes_cons_whole (S := S1x1x1) _ _ hz3,
         readCov_cons_whole (S := S1x1) _ hz2, readCov_cons_whole (S := S1024x1) _ hz2,
         View.readAt_eq_ld, Memref.IsWhole.read_unread,
         View.ld_unit_zero (S := S1x1) hz2, View.ld_unit_zero (S := S1024x1) hz2,
         View.ld_unit_zero (S := S1x1x1) hz3, View.ld_unit_zero (S := S1x1024x3) hz3]))

/-- One case of the four conditions: the step functions' conditionals decided by the case's equations `e·`, the run's
    by its hypotheses `h·`; then each buffer handed to the continuation with what it reads. -/
local macro "run_case " h1:ident h2:ident h3:ident h4:ident " with " e1:term:max e2:term:max e3:term:max e4:term:max : tactic =>
  `(tactic| (
    unfold stepOut stepMax stepMin
    rw [$e1:term, $e2:term, $e3:term, $e4:term]
    simp only [cc0__directed_kernel_eq_skeleton]; unfold cc0__directed_kernel_skel
    unfold owns
    iintro ⟨⟨%f3, %hf3, H3⟩, ⟨%f4, %hf4, H4⟩, ⟨%f5, %hf5, H5⟩, ⟨%f6, %hf6, H6⟩, ⟨%f7, %hf7, H7⟩, Hk⟩
    cases Memref.IsWhole.eq_unread ‹_› hf3; cases Memref.IsWhole.eq_unread ‹_› hf4
    cases Memref.IsWhole.eq_unread ‹_› hf5; cases Memref.IsWhole.eq_unread ‹_› hf6
    cases Memref.IsWhole.eq_unread ‹_› hf7
    sl_exec (disch := first | exact $h1 | exact $h2 | exact $h3 | exact $h4)
    sl_step
    iapply Hk
    isplitl [H3]
    · iexists _; isplitr; swap; · iexact H3
      ipureintro; read_back
    isplitl [H4]
    · iexists _; isplitr; swap; · iexact H4
      ipureintro; read_back
    isplitl [H5]
    · iexists _; isplitr; swap; · iexact H5
      ipureintro; read_back
    isplitl [H6]
    · iexists _; isplitr; swap; · iexact H6
      ipureintro; read_back
    iexists _; isplitr; swap; · iexact H7
    ipureintro; read_back))

set_option maxHeartbeats 1000000 in
theorem body_run (c : Dev nD) (E : Set ℕ) (i : grid0.Coords)
    (arg3 : Memref sig .tc .vmem S1x1024x3 .f32) (harg3 : arg3.IsWhole) (arg4 : Memref sig .tc .vmem S1x1024x3 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x1 .f32) (harg7 : arg7.IsWhole)
    (x0 x1 : Vec F S1x1024x3 .f32) (o : Vec F S1x1x1 .f32) (s6 : Vec F S1024x1 .f32) (s7 : Vec F S1x1 .f32) (K : PUnit → sProp 𝕄) :
    iprop(owns (c : Thread nD τ) arg3 fullShare x0 ∗ owns (c : Thread nD τ) arg4 fullShare x1 ∗ owns (c : Thread nD τ) arg5 fullShare o
        ∗ owns (c : Thread nD τ) arg6 fullShare s6 ∗ owns (c : Thread nD τ) arg7 fullShare s7
        ∗ (iprop(owns (c : Thread nD τ) arg3 fullShare x0 ∗ owns (c : Thread nD τ) arg4 fullShare x1
            ∗ owns (c : Thread nD τ) arg5 fullShare (stepOut i x0 x1 s6 s7 o)
            ∗ owns (c : Thread nD τ) arg6 fullShare (stepMin i x0 x1 s6)
            ∗ owns (c : Thread nD τ) arg7 fullShare (stepMax i x0 x1 s6 s7)) -∗ K ⟨⟩))
      ⊢ wp frame (wpE (defs₀ (F := F)) Variants.none c none) E
          (cc0__directed_kernel i arg3 harg3 arg4 harg4 arg5 harg5 arg6 harg6 arg7 harg7) K := by
  by_cases h1 : cFirst i <;> by_cases h2 : cCol0 i <;> by_cases h3 : cColL i <;> by_cases h4 : cLast i
  · run_case h1 h2 h3 h4 with (if_pos h1) (if_pos h2) (if_pos h3) (if_pos h4)
  · run_case h1 h2 h3 h4 with (if_pos h1) (if_pos h2) (if_pos h3) (if_neg h4)
  · run_case h1 h2 h3 h4 with (if_pos h1) (if_pos h2) (if_neg h3) (if_pos h4)
  · run_case h1 h2 h3 h4 with (if_pos h1) (if_pos h2) (if_neg h3) (if_neg h4)
  · run_case h1 h2 h3 h4 with (if_pos h1) (if_neg h2) (if_pos h3) (if_pos h4)
  · run_case h1 h2 h3 h4 with (if_pos h1) (if_neg h2) (if_pos h3) (if_neg h4)
  · run_case h1 h2 h3 h4 with (if_pos h1) (if_neg h2) (if_neg h3) (if_pos h4)
  · run_case h1 h2 h3 h4 with (if_pos h1) (if_neg h2) (if_neg h3) (if_neg h4)
  · run_case h1 h2 h3 h4 with (if_neg h1) (if_pos h2) (if_pos h3) (if_pos h4)
  · run_case h1 h2 h3 h4 with (if_neg h1) (if_pos h2) (if_pos h3) (if_neg h4)
  · run_case h1 h2 h3 h4 with (if_neg h1) (if_pos h2) (if_neg h3) (if_pos h4)
  · run_case h1 h2 h3 h4 with (if_neg h1) (if_pos h2) (if_neg h3) (if_neg h4)
  · run_case h1 h2 h3 h4 with (if_neg h1) (if_neg h2) (if_pos h3) (if_pos h4)
  · run_case h1 h2 h3 h4 with (if_neg h1) (if_neg h2) (if_pos h3) (if_neg h4)
  · run_case h1 h2 h3 h4 with (if_neg h1) (if_neg h2) (if_neg h3) (if_pos h4)
  · run_case h1 h2 h3 h4 with (if_neg h1) (if_neg h2) (if_neg h3) (if_neg h4)

end Cert.KernelIdeal.Pass0

end
-- ==== Proof.Dat0.lean ====
/-
  The first directed pass, point by point. `acc n` is the pair (running minima, running maximum) the kernel holds in
  its two scratch buffers after grid point n: at point 0 the step from the reset values, afterwards the step from the
  pair the point before left. The output block after point t is the running maximum reshaped. Between points the
  kernel's invariant holds the two scratch buffers at `acc` of the point before (before the first point: at anything),
  and every other private buffer of the core at anything. With these the kernel body meets the pipeline's obligation
  at every point: the input blocks are found in their staging buffers, the scratches are handed over at `acc (t-1)`
  and taken back at `acc t`, and the output block is stored only at a batch's last point, which is where it is
  written back.
-/
import proofs.«107174_j11381663334571_1_alg».proof.Proof.Body0

set_option maxRecDepth 16384

noncomputable section

namespace Cert.KernelIdeal.Pass0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the pass is entered
variable (V : (c : Dev nD) → (b : Ref sig .tc) → Buf (Elt F) ((c : Thread nD τ).loc b))

/-- Window w's block at point t, read off its array as the pass finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of 1024 points of the first cloud (row tile n of batch b) and of the second (column tile m). -/
abbrev xa (c : Dev nD) (t : Fin cfg0.N) : Vec F S1x1024x3 .f32 := iblk V c 0 t
abbrev xb (c : Dev nD) (t : Fin cfg0.N) : Vec F S1x1024x3 .f32 := iblk V c 1 t

/-- An input window's staging buffer holds its block at every point, fetched there or not. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the scratch buffers hold after each point -/

/-- Where the running minima are reset the step forgets what they held; likewise the running maximum. -/
theorem stepMin_reset (i : grid0.Coords) (h : cCol0 i) (x0 x1 : Vec F S1x1024x3 .f32) (s s' : Vec F S1024x1 .f32) :
    stepMin i x0 x1 s = stepMin i x0 x1 s' := by unfold stepMin; rw [if_pos h, if_pos h]
theorem stepMax_reset (i : grid0.Coords) (h : cCol0 i) (h' : cFirst i) (x0 x1 : Vec F S1x1024x3 .f32) (s s' : Vec F S1024x1 .f32) (r r' : Vec F S1x1 .f32) :
    stepMax i x0 x1 s r = stepMax i x0 x1 s' r' := by
  unfold stepMax; rw [stepMin_reset i h x0 x1 s s']; simp only [if_pos h']

/-- The pair (running minima, running maximum) after point n. -/
def acc (c : Dev nD) : (n : ℕ) → n < cfg0.N → Vec F S1024x1 .f32 × Vec F S1x1 .f32
  | 0, hn => (stepMin (grid0.coords ⟨0, hn⟩) (xa V c ⟨0, hn⟩) (xb V c ⟨0, hn⟩) k0_pay5,
      stepMax (grid0.coords ⟨0, hn⟩) (xa V c ⟨0, hn⟩) (xb V c ⟨0, hn⟩) k0_pay5 k0_pay4)
  | n + 1, hn => (stepMin (grid0.coords ⟨n + 1, hn⟩) (xa V c ⟨n + 1, hn⟩) (xb V c ⟨n + 1, hn⟩) (acc c n (Nat.lt_of_succ_lt hn)).1,
      stepMax (grid0.coords ⟨n + 1, hn⟩) (xa V c ⟨n + 1, hn⟩) (xb V c ⟨n + 1, hn⟩) (acc c n (Nat.lt_of_succ_lt hn)).1 (acc c n (Nat.lt_of_succ_lt hn)).2)

/-- At a later point: the step from what the point before left. -/
theorem acc_pos (c : Dev nD) (t : Fin cfg0.N) (hz : t.val ≠ 0) :
    acc V c t.val t.isLt = (stepMin (grid0.coords t) (xa V c t) (xb V c t) (acc V c (t.val - 1) (Nat.lt_of_le_of_lt (Nat.sub_le _ _) t.isLt)).1,
      stepMax (grid0.coords t) (xa V c t) (xb V c t) (acc V c (t.val - 1) (Nat.lt_of_le_of_lt (Nat.sub_le _ _) t.isLt)).1
        (acc V c (t.val - 1) (Nat.lt_of_le_of_lt (Nat.sub_le _ _) t.isLt)).2) := by
  obtain ⟨n, hn⟩ := t
  cases n with
  | zero => exact absurd rfl hz
  | succ n => rfl

/-- At the first point: the step from anything (both values are reset there). -/
theorem acc_zero (c : Dev nD) (t : Fin cfg0.N) (hz : t.val = 0) (s : Vec F S1024x1 .f32) (r : Vec F S1x1 .f32) :
    acc V c t.val t.isLt = (stepMin (grid0.coords t) (xa V c t) (xb V c t) s, stepMax (grid0.coords t) (xa V c t) (xb V c t) s r) := by
  have h0 : cCol0 (grid0.coords t) := (hCol0 t).mpr (by rw [hz])
  have h1 : cFirst (grid0.coords t) := (hFirst t).mpr (by rw [hz])
  obtain ⟨n, hn⟩ := t
  cases n with
  | zero => exact Prod.ext (stepMin_reset _ h0 _ _ _ _) (stepMax_reset _ h0 h1 _ _ _ _ _ _)
  | succ n => exact absurd hz (Nat.succ_ne_zero n)

/-- The output block after point t: the running maximum, reshaped. -/
def outAt (c : Dev nD) (t : Fin cfg0.N) : Vec F S1x1x1 .f32 := k0_pay3 (acc V c t.val t.isLt).2

/-! ## The invariant between points -/

/-- The two scratch buffers as memrefs. -/
abbrev scMin : Memref sig .tc .vmem S1024x1 .f32 := Memref.whole cc0_scratch0
abbrev scMax : Memref sig .tc .vmem S1x1 .f32 := Memref.whole cc0_scratch1

/-! ### The private buffers beside the two scratches -/

/-- The core's other private buffers (the second pass's), each at anything. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- What the pipeline hands the pass before the first point: every private buffer at anything and the generator register. -/
theorem PhiA_eq (c : Dev nD) :
    (Pipeline.ΦA spec0 c : sProp 𝕄)
      = iprop(((∃ d, owns (c : Thread nD τ) scMin fullShare d) ∗ (∃ d, owns (c : Thread nD τ) scMax fullShare d) ∗ restS c) ∗ (∃ r, prngReg c r)) := by
  unfold Pipeline.ΦA restS; rw [scopedRest0_eq]; simp only [scMin, scMax, owns_whole]; try rfl

/-! ### The invariant, point by point -/

/-- Before point n: at the start the pipeline's own; afterwards the scratch buffers at what point n - 1 left. -/
def PhiS (c : Dev nD) : (n : ℕ) → n ≤ cfg0.N → sProp 𝕄
  | 0, _ => Pipeline.ΦA spec0 c
  | n + 1, hn => iprop((owns (c : Thread nD τ) scMin fullShare (acc V c n hn).1 ∗ owns (c : Thread nD τ) scMax fullShare (acc V c n hn).2 ∗ restS c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scMin fullShare (acc V c n hn).1 ∗ owns (c : Thread nD τ) scMax fullShare (acc V c n hn).2 ∗ restS c) ∗ (∃ r, prngReg c r)) := rfl
theorem PhiS_pos (c : Dev nD) (n : ℕ) (h : n ≤ cfg0.N) (hz : n ≠ 0) :
    PhiS V c n h = iprop((owns (c : Thread nD τ) scMin fullShare (acc V c (n - 1) (by omega)).1 ∗ owns (c : Thread nD τ) scMax fullShare (acc V c (n - 1) (by omega)).2 ∗ restS c) ∗ (∃ r, prngReg c r)) := by
  cases n with
  | zero => exact absurd rfl hz
  | succ n => rfl

/-! ## The proof data -/

/-- The pass's proof data on core c: the arrays as found; after the body each input buffer at its block and the output
    buffer at the running maximum; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) : (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outAt V c t := by dsimp only [dat]
theorem before_0 (c : Dev nD) (t : Fin cfg0.N) (d) : (dat V c).before 0 t d = iblk V c 0 t :=
  before_in0_of V (dat V c) (A_eq V c 0) (after_0 V c) t d
theorem before_1 (c : Dev nD) (t : Fin cfg0.N) (d) : (dat V c).before 1 t d = iblk V c 1 t :=
  before_in1_of V (dat V c) (A_eq V c 1) (after_1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

/-- The staging memrefs the pipeline passes the body at point t, and their wholeness. -/
abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1 .f32 := win0_2.stage (cfg0.slots t 2)
abbrev hs2 (t : Fin cfg0.N) : (ms2 t).IsWhole := hstage0_2 ((cfg0.slots t 2).cast nbuf0_2)

/-- The body's triple at point t, from scratch contents s6, s7 and an output block o, with the conditions on the
    output block decided: where the batch is finished the block is stored, -/
theorem body_last (c : Dev nD) (t : Fin cfg0.N) (hL : cLast (grid0.coords t)) (o : Vec F S1x1x1 .f32) (s6 : Vec F S1024x1 .f32) (s7 : Vec F S1x1 .f32) (K : PUnit → sProp 𝕄) :
    iprop(owns (c : Thread nD τ) (ms0 t) fullShare (xa V c t) ∗ owns (c : Thread nD τ) (ms1 t) fullShare (xb V c t) ∗ owns (c : Thread nD τ) (ms2 t) fullShare o
        ∗ owns (c : Thread nD τ) scMin fullShare s6 ∗ owns (c : Thread nD τ) scMax fullShare s7
        ∗ (iprop(owns (c : Thread nD τ) (ms0 t) fullShare (xa V c t) ∗ owns (c : Thread nD τ) (ms1 t) fullShare (xb V c t)
            ∗ owns (c : Thread nD τ) (ms2 t) fullShare (k0_pay3 (stepMax (grid0.coords t) (xa V c t) (xb V c t) s6 s7))
            ∗ owns (c : Thread nD τ) scMin fullShare (stepMin (grid0.coords t) (xa V c t) (xb V c t) s6)
            ∗ owns (c : Thread nD τ) scMax fullShare (stepMax (grid0.coords t) (xa V c t) (xb V c t) s6 s7)) -∗ K ⟨⟩))
      ⊢ wp frame (wpE (defs₀ (F := F)) Variants.none c none) Set.univ (bodyAt0 t) K := by
  have hb := body_run (F := F) c Set.univ (grid0.coords t) (ms0 t) (hs0 t) (ms1 t) (hs1 t) (ms2 t) (hs2 t) scMin (Memref.isWhole_whole _) scMax (Memref.isWhole_whole _)
    (xa V c t) (xb V c t) o s6 s7 K
  rw [show stepOut (grid0.coords t) (xa V c t) (xb V c t) s6 s7 o = k0_pay3 (stepMax (grid0.coords t) (xa V c t) (xb V c t) s6 s7) from by
    unfold stepOut; rw [if_pos hL]] at hb
  exact hb

/-- and elsewhere it is left as found. -/
theorem body_idle (c : Dev nD) (t : Fin cfg0.N) (hL : ¬ cLast (grid0.coords t)) (o : Vec F S1x1x1 .f32) (s6 : Vec F S1024x1 .f32) (s7 : Vec F S1x1 .f32) (K : PUnit → sProp 𝕄) :
    iprop(owns (c : Thread nD τ) (ms0 t) fullShare (xa V c t) ∗ owns (c : Thread nD τ) (ms1 t) fullShare (xb V c t) ∗ owns (c : Thread nD τ) (ms2 t) fullShare o
        ∗ owns (c : Thread nD τ) scMin fullShare s6 ∗ owns (c : Thread nD τ) scMax fullShare s7
        ∗ (iprop(owns (c : Thread nD τ) (ms0 t) fullShare (xa V c t) ∗ owns (c : Thread nD τ) (ms1 t) fullShare (xb V c t)
            ∗ owns (c : Thread nD τ) (ms2 t) fullShare o
            ∗ owns (c : Thread nD τ) scMin fullShare (stepMin (grid0.coords t) (xa V c t) (xb V c t) s6)
            ∗ owns (c : Thread nD τ) scMax fullShare (stepMax (grid0.coords t) (xa V c t) (xb V c t) s6 s7)) -∗ K ⟨⟩))
      ⊢ wp frame (wpE (defs₀ (F := F)) Variants.none c none) Set.univ (bodyAt0 t) K := by
  have hb := body_run (F := F) c Set.univ (grid0.coords t) (ms0 t) (hs0 t) (ms1 t) (hs1 t) (ms2 t) (hs2 t) scMin (Memref.isWhole_whole _) scMax (Memref.isWhole_whole _)
    (xa V c t) (xb V c t) o s6 s7 K
  rw [show stepOut (grid0.coords t) (xa V c t) (xb V c t) s6 s7 o = o from by unfold stepOut; rw [if_neg hL]] at hb
  exact hb

set_option maxHeartbeats 1000000 in
/-- The body at any point meets the pipeline's obligation. -/
theorem sound_body (c : Dev nD) (t : Fin cfg0.N) :
    bodyPre V c t ⊢ wp frame (wpE (defs₀ (F := F)) Variants.none c none) Set.univ (bodyAt0 t) (fun _ => bodyPost V c t) := by
  unfold bodyPre bodyPost
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st0_0 t) fullShare ((dat V c).after 0 t) from by
    unfold Dat.leavesExact; rw [live0 t], after_0]
  rw [show (dat V c).leavesExact 1 t = owns (c : Thread nD τ) (st0_1 t) fullShare ((dat V c).after 1 t) from by
    unfold Dat.leavesExact; rw [live1 t], after_1]
  by_cases hL : cLast (grid0.coords t)
  · have hlive : cfg0.idle 2 (grid0.coords t) = false := by
      cases h : cfg0.idle 2 (grid0.coords t) with
      | false => rfl
      | true => exact absurd hL ((idle_iff t).mp h)
    rw [show (dat V c).leavesExact 2 t = owns (c : Thread nD τ) (st0_2 t) fullShare ((dat V c).after 2 t) from by
      unfold Dat.leavesExact; rw [hlive], after_2]
    have hz : t.val ≠ 0 := by have := (hLast t).mp hL; omega
    unfold outAt
    rw [Phi_castSucc, PhiS_pos V c _ _ hz, acc_pos V c t hz]
    dsimp only
    iintro ⟨⟨⟨H6, H7, Hr⟩, Hg⟩, Ho, ⟨%d0, H0⟩, ⟨%d1, H1⟩, ⟨%d2, H2⟩⟩
    iapply (body_last V c t hL _ _ _ _)
    isplitl [H0]; · iexact H0
    isplitl [H1]; · iexact H1
    isplitl [H2]; · iexact H2
    isplitl [H6]; · iexact H6
    isplitl [H7]; · iexact H7
    iintro ⟨H0, H1, H2, H6, H7⟩
    isplitl [H6 H7 Hr Hg]
    · isplitr [Hg]
      · isplitl [H6]; · iexact H6
        isplitl [H7]; · iexact H7
        iexact Hr
      iexact Hg
    isplitl [Ho]; · iexact Ho
    isplitl [H0]; · iexact H0
    isplitl [H1]; · iexact H1
    iexact H2
  · rw [Dat.leavesExact_idle (dat V c) 2 t ((idle_iff t).mpr hL) (noFlush_of_not_last t hL)]
    by_cases hz : t.val = 0
    · rw [Phi_castSucc, PhiS_zero V c _ _ hz, PhiA_eq]
      iintro ⟨⟨⟨⟨%s6, H6⟩, ⟨%s7, H7⟩, Hr⟩, Hg⟩, Ho, ⟨%d0, H0⟩, ⟨%d1, H1⟩, ⟨%d2, H2⟩⟩
      rw [acc_zero V c t hz s6 s7]
      dsimp only
      iapply (body_idle V c t hL _ _ _ _)
      isplitl [H0]; · iexact H0
      isplitl [H1]; · iexact H1
      isplitl [H2]; · iexact H2
      isplitl [H6]; · iexact H6
      isplitl [H7]; · iexact H7
      iintro ⟨H0, H1, H2, H6, H7⟩
      isplitl [H6 H7 Hr Hg]
      · isplitr [Hg]
        · isplitl [H6]; · iexact H6
          isplitl [H7]; · iexact H7
          iexact Hr
        iexact Hg
      isplitl [Ho]; · iexact Ho
      isplitl [H0]; · iexact H0
      isplitl [H1]; · iexact H1
      iexists _; iexact H2
    · rw [Phi_castSucc, PhiS_pos V c _ _ hz, acc_pos V c t hz]
      dsimp only
      iintro ⟨⟨⟨H6, H7, Hr⟩, Hg⟩, Ho, ⟨%d0, H0⟩, ⟨%d1, H1⟩, ⟨%d2, H2⟩⟩
      iapply (body_idle V c t hL _ _ _ _)
      isplitl [H0]; · iexact H0
      isplitl [H1]; · iexact H1
      isplitl [H2]; · iexact H2
      isplitl [H6]; · iexact H6
      isplitl [H7]; · iexact H7
      iintro ⟨H0, H1, H2, H6, H7⟩
      isplitl [H6 H7 Hr Hg]
      · isplitr [Hg]
        · isplitl [H6]; · iexact H6
          isplitl [H7]; · iexact H7
          iexact Hr
        iexact Hg
      isplitl [Ho]; · iexact Ho
      isplitl [H0]; · iexact H0
      isplitl [H1]; · iexact H1
      iexists _; iexact H2

theorem body_obligation (c : Dev nD) : BodyObligation (dat (F := F) V c) (defs₀ (F := F)) Variants.none () Set.univ := fun t => by
  rw [bigSep_W0, bigSep_W0]
  exact sound_body V c t

/-- What the pipeline hands the pass is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the pipeline's own back: the scratch contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 256 := N_0; omega), PhiA_eq]
  iintro ⟨⟨H6, H7, Hr⟩, Hg⟩
  isplitr [Hg]
  · isplitl [H6]; · iexists _; iexact H6
    isplitl [H7]; · iexists _; iexact H7
    iexact Hr
  iexact Hg

end Cert.KernelIdeal.Pass0

end
-- ==== Proof.Launch.lean ====
/-
  The whole program, from launch to return. Its main function is: the first directed pass (from the first cloud to the
  second), a reshape of its four results, the second directed pass (clouds exchanged), a reshape, and the elementwise
  maximum of the two. Between items every buffer the passes share is held at contents named here: `W0` at launch; `W1`
  after the first pass (its output array at what its write-backs leave, everything else as before); `W2` after the
  first reshape; `W3` after the second pass; `W4` after the last two host operations. Each pass is entered from the
  contents before it and left at the contents after it, its kernel meeting the pipeline's obligation at every point
  (the passes' own modules); so every weakly fair execution terminates without a fault, and every shared buffer ends
  at `W4`. No item writes an argument, so the arguments end as launched; the result buffer ends at the maximum of the
  two reshaped output arrays.
-/
import proofs.«107174_j11381663334571_1_alg».proof.Proof.Dat0
import proofs.«107174_j11381663334571_1_alg».proof.Proof.Dat1
import proofs.«107174_j11381663334571_1_alg».proof.Proof.Gen.KernelIdeal.Regions

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shared buffers' contents between items -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first pass: its arrays at what the pipeline leaves, every other buffer as entered. -/
def W1 (c : Dev nD) : Valuation τ sig (Elt F) :=
  Pipeline.withArrays spec0 c (W0 m ρ c) fun w => (Pass0.dat (V0 m ρ) c).arrAt w cfg0.N
theorem W1_arr (c : Dev nD) (w : Fin cfg0.W) :
    W1 m ρ c (Proc.devRef .tc (Pipeline.arrRef spec0 w)) = (Pass0.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Pass0.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first reshape. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second pass. -/
def W3 (c : Dev nD) : Valuation τ sig (Elt F) :=
  Pipeline.withArrays spec1 c (W2 m ρ c) fun w => (Pass1.dat (V2 m ρ) c).arrAt w cfg1.N
theorem W3_arr (c : Dev nD) (w : Fin cfg1.W) :
    W3 m ρ c (Proc.devRef .tc (Pipeline.arrRef spec1 w)) = (Pass1.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Pass1.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the second reshape and the maximum. -/
abbrev W4 : Dev nD → Valuation τ sig (Elt F) := fun c => StableHlo.after hostOps2 (W3 m ρ c)

/-! ## The arguments end as launched -/

/-- A pass leaves an input array as it found it. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((Pass0.dat (V0 m ρ) c).arrAt_in w hw _).trans (Pass0.A_eq (V0 m ρ) c w))
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((Pass1.dat (V2 m ρ) c).arrAt_in w hw _).trans (Pass1.A_eq (V2 m ρ) c w))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_in m ρ c 1 rfl
    _ = W1 m ρ c (Proc.devRef .tc main_arg0) := StableHlo.after_of_writes_sub hostOps1 _ hostOps1_writes (by decide)
    _ = W0 m ρ c (Proc.devRef .tc main_arg0) := W1_in m ρ c 0 rfl
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_in m ρ c 0 rfl
    _ = W1 m ρ c (Proc.devRef .tc main_arg1) := StableHlo.after_of_writes_sub hostOps1 _ hostOps1_writes (by decide)
    _ = W0 m ρ c (Proc.devRef .tc main_arg1) := W1_in m ρ c 1 rfl
    _ = m ((c : Thread nD τ).loc main_arg1) := rfl

/-! ## The passes' proof data, and what rides along -/

abbrev adm : (p : Fin 2) → (pcfgs (F := F) p).Adm := fun p => (cfgs p).toPCfg_adm
/-- Both passes' proof data, each at the contents its pass is entered with. -/
def pdats : (p : Fin 2) → (c : Dev nD) → Dat τ (Elt F) Unit ℕ (UR sig nD τ) ℕ (Pipeline.pin (pcfgs (F := F)) adm p) c
  | ⟨0, _⟩ => fun c => Pass0.dat (V0 m ρ) c
  | ⟨1, _⟩ => fun c => Pass1.dat (V2 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The passes as segments -/

-- a library lemma stated over the pinned configuration unifies with the printed one only when unification may unfold
-- plain definitions in a metavariable's type
set_option backward.isDefEq.respectTransparency.types false in
/-- Pass 0 as a segment: entered with every shared buffer at `W0`, left with them at `W1`. Its arrays are split out of the
    shared buffers and put back at what the write-backs leave; the generator register goes into the pass's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Pass0.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (Pass0.hin (V0 m ρ) c)
    unfold Pipeline.ΦA
    show (_ : sProp 𝕄) ⊢ _
    iintro ⟨Hp, -, Hr⟩
    isplitl [Hr]; · iexact Hr
    iexact Hp
  hout c := by
    rw [Pipeline.ownSems0_none]
    refine BI.Entails.trans (Pass0.hout (V0 m ρ) c) ?_
    unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pass 1 as a segment: entered with every shared buffer at `W2`, left with them at `W3`. Its arrays are split out of the
    shared buffers and put back at what the write-backs leave; the generator register goes into the pass's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Pass1.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (Pass1.hin (V2 m ρ) c)
    unfold Pipeline.ΦA
    show (_ : sProp 𝕄) ⊢ _
    iintro ⟨Hp, -, Hr⟩
    isplitl [Hr]; · iexact Hr
    iexact Hp
  hout c := by
    rw [Pipeline.ownSems0_none]
    refine BI.Entails.trans (Pass1.hout (V2 m ρ) c) ?_
    unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- From any memory with zero counters every weakly fair execution of the program terminates, nothing faulting, and
    every shared buffer ends at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W4 m ρ c) ∗ ∃ r, prngReg c r))
    (hch := ⟨fun _ => .rfl, fun _ => .rfl, fun _ => .rfl, fun _ => .rfl, fun c => by
      show (iprop(StableHlo.held (c : Thread nD τ) (Pipeline.ucRefs τ sig) (W4 m ρ c) ∗ R c) : sProp 𝕄) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run_all m ρ)

end Cert.KernelIdeal.Whole

end
-- ==== Proof.Spec.lean ====
/-
  The symmetric Hausdorff distance of two clouds of 8192 points in three coordinates, for each of four batches, on
  the extended reals. For clouds x and y and a batch b:
    sq x b n      = the sum over the three coordinates d of x[b,n,d] * x[b,n,d]
    dot x y b n m = the sum over d of x[b,n,d] * y[b,m,d]
    dist x y b n m = sqrt (max (sq x b n + sq y b m - 2 * dot x y b n m) 0)
    directed x y b = the largest over n of the smallest over m of dist x y b n m
    hd x y b       = max (directed x y b) (directed y x b).
  The distance is symmetric (dist x y b n m = dist y x b m n) because addition and multiplication of extended reals
  commute; no finiteness is needed for that.
-/
import Idealize.ShloMosaic.PureOps.Ideal
import Idealize.ShloMosaic.Lib.ValueIdx
import Mathlib.Order.CompleteLattice.Finset

noncomputable section

open scoped BigOperators

namespace Cert.Hausdorff

open Idealize.ShloMosaic Idealize.ShloMosaic.ValueIdx

/-- A cloud of points: batch, point, coordinate. -/
abbrev Cloud : Type := (⟨3, ![4, 8192, 3]⟩ : Shape).Idx → EReal

/-- The float words the two programs share: 2.0 and 0.0. -/
abbrev two : EReal := Ideal.ofBits .f32 0x40000000#32
abbrev zero : EReal := Ideal.ofBits .f32 0x00000000#32

/-- A point's squared length. -/
def sq (x : Cloud) (b : Fin 4) (n : Fin 8192) : EReal := ∑ d : Fin 3, x (ix3 b n d) * x (ix3 b n d)

/-- The inner product of point n of x with point m of y. -/
def dot (x y : Cloud) (b : Fin 4) (n m : Fin 8192) : EReal := ∑ d : Fin 3, x (ix3 b n d) * y (ix3 b m d)

/-- The distance of point n of x from point m of y by the expansion |x|² + |y|² - 2 x·y, clamped at zero. -/
def dist (x y : Cloud) (b : Fin 4) (n m : Fin 8192) : EReal :=
  Ideal.sqrt (max (sq x b n + sq y b m - two * dot x y b n m) zero)

/-- The directed distance: the farthest any point of x is from its nearest point of y. -/
def directed (x y : Cloud) (b : Fin 4) : EReal :=
  Finset.univ.sup fun n : Fin 8192 => Finset.univ.inf fun m : Fin 8192 => dist x y b n m

/-- The symmetric distance. -/
def hd (x y : Cloud) (b : Fin 4) : EReal := max (directed x y b) (directed y x b)

theorem dot_comm (x y : Cloud) (b : Fin 4) (n m : Fin 8192) : dot x y b n m = dot y x b m n := by
  unfold dot; exact Finset.sum_congr rfl fun d _ => mul_comm _ _

/-- The distance does not depend on which cloud is named first. -/
theorem dist_comm (x y : Cloud) (b : Fin 4) (n m : Fin 8192) : dist x y b n m = dist y x b m n := by
  unfold dist; rw [dot_comm x y b n m, add_comm (sq x b n) (sq y b m)]

/-- The other directed distance, written over the same matrix of distances: the largest over the points m of y of the
    smallest over the points n of x of dist x y b n m. -/
theorem directed_swap (x y : Cloud) (b : Fin 4) :
    directed y x b = Finset.univ.sup fun m : Fin 8192 => Finset.univ.inf fun n : Fin 8192 => dist x y b n m := by
  unfold directed; simp only [dist_comm y x]

end Cert.Hausdorff

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.PayIdeal.lean ====
/-
  The kernel's arithmetic on the extended reals, read one entry at a time. For two blocks of 1024 points,
  `bdist x0 x1 r k` is the clamped expansion distance sqrt (max (|p|² + |q|² - 2 p·q) 0) between point r of the first
  block and point k of the second. The payload that updates the running minima is, at row r, the smaller of the old
  minimum and the smallest `bdist` over the 1024 points of the second block: the bf16 casts are the identity on the
  extended reals, the matrix product into a zero accumulator is the sum of the three coordinate products, the two lane
  sums are the squared lengths, and the lane minimum from +inf is the infimum. The payload that updates the running
  maximum is the larger of the old maximum and the largest running minimum. The reset values are +inf and -inf, and the
  reshapes keep every entry. The second pass's payloads are the same functions.
-/
import proofs.«107174_j11381663334571_1_alg».proof.Proof.Gen.KernelIdeal.Skeleton
import proofs.«107174_j11381663334571_1_alg».proof.Proof.LibDot2
import proofs.«107174_j11381663334571_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Pay

open Idealize.ShloMosaic Idealize.ShloMosaic.ValueIdx Cert.KernelIdeal Cert.KernelIdeal.Gen Cert.Hausdorff

/-- A block of 1024 points. -/
abbrev Blk : Type := FVec Ideal S1x1024x3 .f32

/-- The clamped expansion distance between point r of the first block and point k of the second. -/
def bdist (x0 x1 : Blk) (r k : Fin 1024) : EReal :=
  Ideal.sqrt (max ((∑ d : Fin 3, x0 (ix3 0 r d) * x0 (ix3 0 r d)) + (∑ d : Fin 3, x1 (ix3 0 k d) * x1 (ix3 0 k d))
    - two * ∑ d : Fin 3, x0 (ix3 0 r d) * x1 (ix3 0 k d)) zero)

/-! ## Words -/

/-- The word 0x7F800000 is +inf. -/
theorem ofBits_posInf : Ideal.ofBits .f32 0x7F800000#32 = (⊤ : EReal) := by simp [Ideal.ofBits, Ideal.ieee]

/-- The word 0xFF800000 is -inf. -/
theorem ofBits_negInf : Ideal.ofBits .f32 0xFF800000#32 = (⊥ : EReal) := by simp [Ideal.ofBits, Ideal.ieee]

/-! ## Folds of min and max as infimum and supremum -/

/-- The fold of min from the top element is the infimum. -/
theorem fold_min_top {ι : Type} (t : Finset ι) (f : ι → EReal) : t.fold min (⊤ : EReal) f = t.inf f := by
  classical
  induction t using Finset.induction_on with
  | empty => simp
  | insert a t ha ih => rw [Finset.fold_insert ha, Finset.inf_insert, ih]

/-- The fold of max from the bottom element is the supremum. -/
theorem fold_max_bot {ι : Type} (t : Finset ι) (f : ι → EReal) : t.fold max (⊥ : EReal) f = t.sup f := by
  classical
  induction t using Finset.induction_on with
  | empty => simp
  | insert a t ha ih => rw [Finset.fold_insert ha, Finset.sup_insert, ih]

/-! ## Reshapes and broadcasts of a column -/

/-- A vector of length a cast to a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reductions -/

/-- A lane minimum over one axis at the extended reals: the fold of min from the accumulator's value over that axis. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum over the three coordinates of a [1024, 3] matrix, read at row p. -/
theorem rowsum_apply (v : FVec Ideal S1024x3 .f32) (h : S1024x3.Reduces [1] S1024) (hφ : FKind.Formats .f32)
    (hacc : (0x00000000#32 : BitVec 32) = FKind.add.neutral .f32 hφ) (p : Fin 1024) :
    multiReduction (F := Ideal) .add [1] S1024 v 0x00000000#32 h hφ hacc (ix1 p) = ∑ d : Fin 3, v (ix2 p d) := by
  refine (Ideal.multiReduction_add_single v _ h hφ hacc (ix1 p)).trans ?_
  refine Finset.sum_congr rfl fun d _ => congrArg v ?_
  funext a
  match a with
  | ⟨0, _⟩ => rfl
  | ⟨1, _⟩ => rfl

/-- The minimum over the 1024 lanes of a [1024, 1024] matrix from +inf, read at row p: the infimum of the row. -/
theorem lanemin_apply (v : FVec Ideal S1024x1024 .f32) (h : S1024x1024.Reduces [1] S1024) (hφ : FKind.Formats .f32)
    (hacc : (0x7F800000#32 : BitVec 32) = FKind.minimumf.neutral .f32 hφ) (p : Fin 1024) :
    multiReduction (F := Ideal) .minimumf [1] S1024 v 0x7F800000#32 h hφ hacc (ix1 p)
      = Finset.univ.inf fun k : Fin 1024 => v (ix2 p k) := by
  refine (multiReduction_minimumf_single v _ h hφ hacc (ix1 p)).trans ?_
  have e : FloatOps.ofBits (F := Ideal) .f32 0x7F800000#32 = (⊤ : EReal) := ofBits_posInf
  rw [e]
  refine (fold_min_top _ _).trans ?_
  refine congrArg (Finset.univ.inf) (funext fun k => congrArg v ?_)
  funext a
  match a with
  | ⟨0, _⟩ => rfl
  | ⟨1, _⟩ => rfl

/-- The maximum over the 1024 rows of a [1024, 1] column from -inf: the supremum of the column. -/
theorem colmax_apply (v : FVec Ideal S1024x1 .f32) (h : S1024x1.Reduces [0] S1) (hφ : FKind.Formats .f32)
    (hacc : (0xFF800000#32 : BitVec 32) = FKind.maximumf.neutral .f32 hφ) (u : Fin 1) :
    multiReduction (F := Ideal) .maximumf [0] S1 v 0xFF800000#32 h hφ hacc (ix1 u)
      = Finset.univ.sup fun r : Fin 1024 => v (ix2 r 0) := by
  refine (Ideal.multiReduction_maximumf_single v _ h hφ hacc (ix1 u)).trans ?_
  have e : FloatOps.ofBits (F := Ideal) .f32 0xFF800000#32 = (⊥ : EReal) := ofBits_negInf
  rw [e]
  refine (fold_max_bot _ _).trans ?_
  refine congrArg (Finset.univ.sup) (funext fun k => congrArg v ?_)
  funext a
  match a with
  | ⟨0, _⟩ => rfl
  | ⟨1, _⟩ => exact @Subsingleton.elim (Fin 1) _ _ _

/-! ## The matrix product -/

theorem dot_lhs_0 (i : S1024x1024.Idx) (q : dot_S1024x3_S3x1024_S1024x1024_1_0_0_1_n_n.contr.Idx) :
    (dot_S1024x3_S3x1024_S1024x1024_1_0_0_1_n_n.lhsIdx i q 0).val = (i 0).val := by
  unfold DotDims.lhsIdx
  rw [dif_neg (show ¬(0 : Fin S1024x3.rank) ∈ dot_S1024x3_S3x1024_S1024x1024_1_0_0_1_n_n.lhsBatch by decide), dif_pos (show (0 : Fin S1024x3.rank) ∈ dot_S1024x3_S3x1024_S1024x1024_1_0_0_1_n_n.lhsNonContracting by decide)]
  rfl
theorem dot_lhs_1 (i : S1024x1024.Idx) (q : dot_S1024x3_S3x1024_S1024x1024_1_0_0_1_n_n.contr.Idx) :
    (dot_S1024x3_S3x1024_S1024x1024_1_0_0_1_n_n.lhsIdx i q 1).val = (q ⟨0, by decide⟩).val :=
  dot_S1024x3_S3x1024_S1024x1024_1_0_0_1_n_n.lhsIdx_val_of_single rfl i q
theorem dot_rhs_0 (i : S1024x1024.Idx) (q : dot_S1024x3_S3x1024_S1024x1024_1_0_0_1_n_n.contr.Idx) :
    (dot_S1024x3_S3x1024_S1024x1024_1_0_0_1_n_n.rhsIdx i q 0).val = (q ⟨0, by decide⟩).val :=
  dot_S1024x3_S3x1024_S1024x1024_1_0_0_1_n_n.rhsIdx_val_of_single rfl i q
theorem dot_rhs_1 (i : S1024x1024.Idx) (q : dot_S1024x3_S3x1024_S1024x1024_1_0_0_1_n_n.contr.Idx) :
    (dot_S1024x3_S3x1024_S1024x1024_1_0_0_1_n_n.rhsIdx i q 1).val = (i 1).val := by
  unfold DotDims.rhsIdx
  rw [dif_neg (show ¬(1 : Fin S3x1024.rank) ∈ dot_S1024x3_S3x1024_S1024x1024_1_0_0_1_n_n.rhsBatch by decide), dif_pos (show (1 : Fin S3x1024.rank) ∈ dot_S1024x3_S3x1024_S1024x1024_1_0_0_1_n_n.rhsNonContracting by decide)]
  rfl

/-- The product of a [1024, 3] matrix with a [3, 1024] matrix into zero, read at (p, q). -/
theorem matmul_entry (l : FVec Ideal S1024x3 .bf16) (r : FVec Ideal S3x1024 .bf16) (p q : Fin 1024) :
    matmul dot_S1024x3_S3x1024_S1024x1024_1_0_0_1_n_n none l r (constant (F := Ideal) S1024x1024 .f32 0x00000000#32) (ix2 p q)
      = ∑ a : Fin 3, l (ix2 p a) * r (ix2 a q) :=
  Cert.Lib.Dot2.matmul_zero_ix2 dot_S1024x3_S3x1024_S1024x1024_1_0_0_1_n_n none rfl rfl dot_lhs_0 dot_lhs_1 dot_rhs_0 dot_rhs_1 l r p q

theorem pay6_apply (x0 x1 : Blk) (s : FVec Ideal S1024x1 .f32) (r : Fin 1024) :
    k0_pay6 (F := Ideal) x0 x1 s (ix2 r 0) = min (s (ix2 r 0)) (Finset.univ.inf fun k : Fin 1024 => bdist x0 x1 r k) := by
  unfold k0_pay6
  refine congrArg (min (s (ix2 r 0))) ?_
  refine (shapeCast_a_a1_apply _ _ r 0).trans ?_
  refine (lanemin_apply _ _ _ _ r).trans ?_
  refine congrArg Finset.univ.inf (funext fun k => ?_)
  unfold bdist
  refine congrArg Ideal.sqrt ?_
  refine congrArg₂ max ?_ rfl
  refine congrArg₂ (· - ·) ?_ ?_
  · refine congrArg₂ (· + ·) ?_ ?_
    · refine (broadcastTo_a1_ab_apply _ _ r k).trans ?_
      refine (shapeCast_a_a1_apply _ _ r 0).trans ?_
      refine (rowsum_apply _ _ _ _ r).trans ?_
      refine Finset.sum_congr rfl fun d _ => ?_
      exact congrArg₂ (· * ·) (shapeCast_1ab_ab_apply x0 _ r d) (shapeCast_1ab_ab_apply x0 _ r d)
    · refine (broadcastTo_1b_ab_apply _ _ r k).trans ?_
      refine (shapeCast_a_1a_apply _ _ 0 k).trans ?_
      refine (rowsum_apply _ _ _ _ k).trans ?_
      refine Finset.sum_congr rfl fun d _ => ?_
      exact congrArg₂ (· * ·) (shapeCast_1ab_ab_apply x1 _ k d) (shapeCast_1ab_ab_apply x1 _ k d)
  · refine congrArg₂ (· * ·) rfl ?_
    refine (matmul_entry _ _ r k).trans ?_
    refine Finset.sum_congr rfl fun d _ => ?_
    refine congrArg₂ (· * ·) ?_ ?_
    · exact shapeCast_1ab_ab_apply x0 _ r d
    · refine (transpose_ix2_apply _ _ d k).trans ?_
      exact shapeCast_1ab_ab_apply x1 _ k d

theorem pay1_eq (v : FVec Ideal S1024x1 .f32) : k0_pay1 (F := Ideal) v = v := by
  unfold k0_pay1
  exact shapeCast_self v _

theorem pay2_apply (v : FVec Ideal S1024x1 .f32) (s : FVec Ideal S1x1 .f32) :
    k0_pay2 (F := Ideal) v s (ix2 0 0) = max (s (ix2 0 0)) (Finset.univ.sup fun r : Fin 1024 => v (ix2 r 0)) := by
  unfold k0_pay2
  rw [shapeCast_self]
  refine congrArg (max (s (ix2 0 0))) ?_
  refine (shapeCast_a_1a_apply _ _ 0 0).trans ?_
  exact colmax_apply v _ _ _ 0

theorem pay3_apply (s : FVec Ideal S1x1 .f32) : k0_pay3 (F := Ideal) s (ix3 0 0 0) = s (ix2 0 0) := by
  unfold k0_pay3
  exact shapeCast_ab_1ab_apply s _ 0 0 0

theorem pay4_apply : k0_pay4 (F := Ideal) (ix2 0 0) = (⊥ : EReal) := by
  unfold k0_pay4
  rw [shapeCast_self]
  exact ofBits_negInf

theorem pay5_apply (r : Fin 1024) : k0_pay5 (F := Ideal) (ix2 r 0) = (⊤ : EReal) := by
  unfold k0_pay5
  rw [shapeCast_self]
  exact ofBits_posInf

/-- The second pass's payloads are the first's. -/
theorem pay6_second (x0 x1 : Blk) (s : FVec Ideal S1024x1 .f32) : k1_pay6 (F := Ideal) x0 x1 s = k0_pay6 (F := Ideal) x0 x1 s := rfl
theorem pay1_second (v : FVec Ideal S1024x1 .f32) : k1_pay1 (F := Ideal) v = k0_pay1 (F := Ideal) v := rfl
theorem pay2_second (v : FVec Ideal S1024x1 .f32) (s : FVec Ideal S1x1 .f32) : k1_pay2 (F := Ideal) v s = k0_pay2 (F := Ideal) v s := rfl
theorem pay3_second (s : FVec Ideal S1x1 .f32) : k1_pay3 (F := Ideal) s = k0_pay3 (F := Ideal) s := rfl
theorem pay4_second : k1_pay4 (F := Ideal) = k0_pay4 (F := Ideal) := rfl
theorem pay5_second : k1_pay5 (F := Ideal) = k0_pay5 (F := Ideal) := rfl

end Cert.KernelIdeal.Pay

end
-- ==== Proof.Read0.lean ====
/-
  The first pass's input blocks, read at an entry. Grid point t is batch t / 64, row tile (t / 8) % 8, column tile
  t % 8. The first window's block at t is rows 1024 * ((t / 8) % 8) .. + 1023 of batch t / 64 of the pass's first
  cloud, the second window's block is rows 1024 * (t % 8) .. + 1023 of the same batch of its second cloud: a block's
  coordinate is always index * size + the coordinate inside the block.
-/
import proofs.«107174_j11381663334571_1_alg».proof.Proof.Dat0
import proofs.«107174_j11381663334571_1_alg».proof.Proof.Spec
import proofs.«107174_j11381663334571_1_alg».proof.Proof.PayIdeal
import Idealize.ShloMosaic.Lib.Pipeline.Value
import Idealize.ShloMosaic.Lib.ValueIdx

set_option maxRecDepth 16384

noncomputable section

open scoped BigOperators

namespace Cert.KernelIdeal.Pass0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Hausdorff Cert.KernelIdeal.Pay

-- the core's buffer contents when the pass is entered, on the extended reals
variable (V : (c : Dev nD) → (b : Ref sig .tc) → Buf (Elt Ideal) ((c : Thread nD τ).loc b))

/-- The pass's two clouds: the arrays behind its first and second windows. -/
abbrev cloudA (c : Dev nD) : Cloud := V c (Pipeline.arrRef spec0 0)
abbrev cloudB (c : Dev nD) : Cloud := V c (Pipeline.arrRef spec0 1)

/-- A grid point's batch, and the first row of its row tile and of its column tile. -/
def bOf (t : Fin cfg0.N) : Fin 4 := ⟨t.val / 64, by have := t.isLt; have : cfg0.N = 256 := N_0; omega⟩
def rowOf (t : Fin cfg0.N) (r : Fin 1024) : Fin 8192 := ⟨1024 * (t.val / 8 % 8) + r.val, by have := r.isLt; omega⟩
def colOf (t : Fin cfg0.N) (k : Fin 1024) : Fin 8192 := ⟨1024 * (t.val % 8) + k.val, by have := k.isLt; omega⟩

/-- The two input windows' block indices at a grid point: batch, then row tile (first window) or column tile
    (second window), then nothing. -/
theorem idxA : ∀ t : Fin cfg0.N, win0_0.index t (0 : Fin 3) = t.val / 64 ∧ win0_0.index t (1 : Fin 3) = t.val / 8 % 8
    ∧ win0_0.index t (2 : Fin 3) = 0 :=
  (by decide +kernel : ∀ t : Fin grid0.N, _)
theorem idxB : ∀ t : Fin cfg0.N, win0_1.index t (0 : Fin 3) = t.val / 64 ∧ win0_1.index t (1 : Fin 3) = t.val % 8
    ∧ win0_1.index t (2 : Fin 3) = 0 :=
  (by decide +kernel : ∀ t : Fin grid0.N, _)

theorem xa_apply (c : Dev nD) (t : Fin cfg0.N) (r : Fin 1024) (d : Fin 3) :
    xa V c t (ix3 0 r d) = cloudA V c (ix3 (bOf t) (rowOf t r) d) := by
  obtain ⟨e0, e1, e2⟩ := idxA t
  unfold xa iblk
  rw [View.read_apply]
  show V c (Pipeline.arrRef spec0 0) (((cfg0.win 0).blk t).view.emb (ix3 0 r d)) = V c (Pipeline.arrRef spec0 0) (ix3 (bOf t) (rowOf t r) d)
  refine congrArg _ (funext fun a => Fin.ext ?_)
  match a with
  | ⟨0, _⟩ => show win0_0.index t (0 : Fin 3) * 1 + 1 * (0 : Fin 1).val = t.val / 64; rw [e0]; simp
  | ⟨1, _⟩ => show win0_0.index t (1 : Fin 3) * 1024 + 1 * r.val = 1024 * (t.val / 8 % 8) + r.val; rw [e1]; omega
  | ⟨2, _⟩ => show win0_0.index t (2 : Fin 3) * 3 + 1 * d.val = d.val; rw [e2]; omega

theorem xb_apply (c : Dev nD) (t : Fin cfg0.N) (k : Fin 1024) (d : Fin 3) :
    xb V c t (ix3 0 k d) = cloudB V c (ix3 (bOf t) (colOf t k) d) := by
  obtain ⟨e0, e1, e2⟩ := idxB t
  unfold xb iblk
  rw [View.read_apply]
  show V c (Pipeline.arrRef spec0 1) (((cfg0.win 1).blk t).view.emb (ix3 0 k d)) = V c (Pipeline.arrRef spec0 1) (ix3 (bOf t) (colOf t k) d)
  refine congrArg _ (funext fun a => Fin.ext ?_)
  match a with
  | ⟨0, _⟩ => show win0_1.index t (0 : Fin 3) * 1 + 1 * (0 : Fin 1).val = t.val / 64; rw [e0]; simp
  | ⟨1, _⟩ => show win0_1.index t (1 : Fin 3) * 1024 + 1 * k.val = 1024 * (t.val % 8) + k.val; rw [e1]; omega
  | ⟨2, _⟩ => show win0_1.index t (2 : Fin 3) * 3 + 1 * d.val = d.val; rw [e2]; omega

/-- So the block distance is the clouds' distance at those rows. -/
theorem bdist_blocks (c : Dev nD) (t : Fin cfg0.N) (r k : Fin 1024) :
    bdist (xa V c t) (xb V c t) r k = Hausdorff.dist (cloudA V c) (cloudB V c) (bOf t) (rowOf t r) (colOf t k) := by
  unfold bdist Hausdorff.dist Hausdorff.sq Hausdorff.dot
  simp only [xa_apply, xb_apply]

end Cert.KernelIdeal.Pass0

end
-- ==== Proof.Fold0.lean ====
/-
  The first pass's two running values in closed form, on the extended reals. Write the pass's clouds A and B and
  D b i j for dist A B b i j. After grid point t (batch b = t / 64, row tile n = (t / 8) % 8, column tile m = t % 8):
    the running minimum of row r is the smallest D b (1024 n + r) j over the columns j < 1024 (m + 1) seen so far
    in this row tile;
    the running maximum is the largest, over the rows i < 1024 * ((t % 64 + 1) / 8) of the row tiles already
    finished in this batch, of the smallest D b i j over ALL columns j.
  Both by induction on t: a reset puts +inf / -inf, which are the empty infimum / supremum; a step lowers the minimum
  by the infimum over the next 1024 columns, and min of two infima over adjacent column ranges is the infimum over
  their union; at a row tile's last column tile the minima are over all 8192 columns, and their largest joins the
  maximum, the union of the finished row ranges growing by 1024 rows. At a batch's last point (t % 64 = 63) every
  row is in, and the running maximum is the directed distance of the batch.
-/
import proofs.«107174_j11381663334571_1_alg».proof.Proof.Read0
import proofs.«107174_j11381663334571_1_alg».proof.Proof.PayIdeal

set_option maxRecDepth 16384

noncomputable section

open scoped BigOperators

namespace Cert.KernelIdeal.Pass0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Hausdorff Cert.KernelIdeal.Pay

-- the core's buffer contents when the pass is entered, on the extended reals
variable (V : (c : Dev nD) → (b : Ref sig .tc) → Buf (Elt Ideal) ((c : Thread nD τ).loc b))

/-- The infimum over the columns below 1024 m, lowered by the infimum over the next 1024 columns, is the infimum over
    the columns below 1024 (m + 1). -/
theorem inf_adjoin (f : Fin 8192 → EReal) (m : ℕ) (hm : 1024 * (m + 1) ≤ 8192)
    (g : Fin 1024 → Fin 8192) (hg : ∀ k : Fin 1024, (g k).val = 1024 * m + k.val) :
    min ((Finset.univ.filter fun j : Fin 8192 => j.val < 1024 * m).inf f) (Finset.univ.inf fun k : Fin 1024 => f (g k))
      = (Finset.univ.filter fun j : Fin 8192 => j.val < 1024 * (m + 1)).inf f := by
  apply le_antisymm
  · rw [Finset.le_inf_iff]
    intro j hj
    rw [Finset.mem_filter] at hj
    by_cases h : j.val < 1024 * m
    · exact le_trans (min_le_left _ _) (Finset.inf_le (Finset.mem_filter.mpr ⟨Finset.mem_univ _, h⟩))
    · have hk : j.val - 1024 * m < 1024 := by have := hj.2; omega
      have hjk : g ⟨j.val - 1024 * m, hk⟩ = j := by
        apply Fin.ext; rw [hg]; show 1024 * m + (j.val - 1024 * m) = j.val; omega
      refine le_trans (min_le_right _ _) ?_
      have h2 := Finset.inf_le (f := fun k : Fin 1024 => f (g k)) (Finset.mem_univ (⟨j.val - 1024 * m, hk⟩ : Fin 1024))
      rw [hjk] at h2
      exact h2
  · rw [le_min_iff]
    constructor
    · rw [Finset.le_inf_iff]
      intro j hj
      rw [Finset.mem_filter] at hj
      exact Finset.inf_le (Finset.mem_filter.mpr ⟨Finset.mem_univ _, by have := hj.2; omega⟩)
    · rw [Finset.le_inf_iff]
      intro k _
      exact Finset.inf_le (Finset.mem_filter.mpr ⟨Finset.mem_univ _, by rw [hg]; have := k.isLt; omega⟩)

/-- The supremum over the rows below 1024 m, raised by the supremum over the next 1024 rows, is the supremum over the
    rows below 1024 (m + 1). -/
theorem sup_adjoin (f : Fin 8192 → EReal) (m : ℕ) (hm : 1024 * (m + 1) ≤ 8192)
    (g : Fin 1024 → Fin 8192) (hg : ∀ k : Fin 1024, (g k).val = 1024 * m + k.val) :
    max ((Finset.univ.filter fun j : Fin 8192 => j.val < 1024 * m).sup f) (Finset.univ.sup fun k : Fin 1024 => f (g k))
      = (Finset.univ.filter fun j : Fin 8192 => j.val < 1024 * (m + 1)).sup f := by
  apply le_antisymm
  · rw [max_le_iff]
    constructor
    · rw [Finset.sup_le_iff]
      intro j hj
      rw [Finset.mem_filter] at hj
      exact Finset.le_sup (f := f) (Finset.mem_filter.mpr ⟨Finset.mem_univ _, by have := hj.2; omega⟩)
    · rw [Finset.sup_le_iff]
      intro k _
      exact Finset.le_sup (f := f) (Finset.mem_filter.mpr ⟨Finset.mem_univ _, by rw [hg]; have := k.isLt; omega⟩)
  · rw [Finset.sup_le_iff]
    intro j hj
    rw [Finset.mem_filter] at hj
    by_cases h : j.val < 1024 * m
    · exact le_trans (Finset.le_sup (f := f) (Finset.mem_filter.mpr ⟨Finset.mem_univ _, h⟩)) (le_max_left _ _)
    · have hk : j.val - 1024 * m < 1024 := by have := hj.2; omega
      have hjk : g ⟨j.val - 1024 * m, hk⟩ = j := by
        apply Fin.ext; rw [hg]; show 1024 * m + (j.val - 1024 * m) = j.val; omega
      refine le_trans ?_ (le_max_right _ _)
      have h2 := Finset.le_sup (f := fun k : Fin 1024 => f (g k)) (Finset.mem_univ (⟨j.val - 1024 * m, hk⟩ : Fin 1024))
      rw [hjk] at h2
      exact h2

/-- Below 0 there is no column: the infimum is +inf, the supremum -inf. -/
theorem inf_below_zero (f : Fin 8192 → EReal) (m : ℕ) (hm : m = 0) :
    (Finset.univ.filter fun j : Fin 8192 => j.val < 1024 * m).inf f = ⊤ := by
  rw [Finset.filter_false_of_mem (fun j _ => by omega), Finset.inf_empty]
theorem sup_below_zero (f : Fin 8192 → EReal) (m : ℕ) (hm : m = 0) :
    (Finset.univ.filter fun j : Fin 8192 => j.val < 1024 * m).sup f = ⊥ := by
  rw [Finset.filter_false_of_mem (fun j _ => by omega), Finset.sup_empty]

/-- Below 8192 is every column. -/
theorem filter_all (m : ℕ) (hm : m = 8) : (Finset.univ.filter fun j : Fin 8192 => j.val < 1024 * m) = Finset.univ :=
  Finset.filter_true_of_mem fun j _ => by have := j.isLt; omega

/-- One step of the running minima, from minima that (unless this point resets them) are the infimum over the
    columns of the column tiles before this one: the infimum over the columns up to and including this tile. -/
theorem stepMin_closed (c : Dev nD) (t : Fin cfg0.N) (s : FVec Ideal S1024x1 .f32)
    (hs : t.val % 8 ≠ 0 → ∀ r : Fin 1024, s (ix2 r 0)
      = (Finset.univ.filter fun j : Fin 8192 => j.val < 1024 * (t.val % 8)).inf
          fun j => Hausdorff.dist (cloudA V c) (cloudB V c) (bOf t) (rowOf t r) j)
    (r : Fin 1024) :
    stepMin (grid0.coords t) (xa V c t) (xb V c t) s (ix2 r 0)
      = (Finset.univ.filter fun j : Fin 8192 => j.val < 1024 * (t.val % 8 + 1)).inf
          fun j => Hausdorff.dist (cloudA V c) (cloudB V c) (bOf t) (rowOf t r) j := by
  unfold stepMin
  rw [pay1_eq, pay6_apply]
  simp only [bdist_blocks]
  have hprev : (if cCol0 (grid0.coords t) then k0_pay5 else s) (ix2 r 0)
      = (Finset.univ.filter fun j : Fin 8192 => j.val < 1024 * (t.val % 8)).inf
          fun j => Hausdorff.dist (cloudA V c) (cloudB V c) (bOf t) (rowOf t r) j := by
    by_cases h : t.val % 8 = 0
    · rw [if_pos ((hCol0 t).mpr h), pay5_apply, inf_below_zero _ _ h]
    · rw [if_neg (fun hc => h ((hCol0 t).mp hc))]; exact hs h r
  rw [hprev]
  exact inf_adjoin (fun j => Hausdorff.dist (cloudA V c) (cloudB V c) (bOf t) (rowOf t r) j) (t.val % 8) (by omega)
    (colOf t) (fun k => rfl)

theorem acc_min_aux (c : Dev nD) : ∀ (n : ℕ) (hn : n < cfg0.N) (r : Fin 1024),
    (acc V c n hn).1 (ix2 r 0)
      = (Finset.univ.filter fun j : Fin 8192 => j.val < 1024 * (n % 8 + 1)).inf
          fun j => Hausdorff.dist (cloudA V c) (cloudB V c) (bOf ⟨n, hn⟩) (rowOf ⟨n, hn⟩ r) j := by
  intro n
  induction n with
  | zero =>
    intro hn r
    exact stepMin_closed V c ⟨0, hn⟩ k0_pay5 (fun h => absurd rfl h) r
  | succ n ih =>
    intro hn r
    refine stepMin_closed V c ⟨n + 1, hn⟩ (acc V c n (Nat.lt_of_succ_lt hn)).1 (fun h r' => ?_) r
    have h' : (n + 1) % 8 ≠ 0 := h
    rw [ih (Nat.lt_of_succ_lt hn) r']
    have h1 : n % 8 + 1 = (n + 1) % 8 := by omega
    have h2 : bOf ⟨n, Nat.lt_of_succ_lt hn⟩ = bOf ⟨n + 1, hn⟩ := by
      apply Fin.ext; show n / 64 = (n + 1) / 64; omega
    have h3 : rowOf ⟨n, Nat.lt_of_succ_lt hn⟩ r' = rowOf ⟨n + 1, hn⟩ r' := by
      apply Fin.ext; show 1024 * (n / 8 % 8) + r'.val = 1024 * ((n + 1) / 8 % 8) + r'.val; omega
    rw [h1, h2, h3]

/-- The running minimum of row r after point t. -/
theorem acc_min (c : Dev nD) (t : Fin cfg0.N) (r : Fin 1024) :
    (acc V c t.val t.isLt).1 (ix2 r 0)
      = (Finset.univ.filter fun j : Fin 8192 => j.val < 1024 * (t.val % 8 + 1)).inf
          fun j => Hausdorff.dist (cloudA V c) (cloudB V c) (bOf t) (rowOf t r) j := by
  exact acc_min_aux V c t.val t.isLt r

/-- One step of the running maximum, from new minima in closed form and a maximum that (unless this point resets it)
    is the supremum over the rows of the row tiles finished before this point: the supremum over the rows of the row
    tiles finished after it. -/
theorem stepMax_closed (c : Dev nD) (t : Fin cfg0.N) (s : FVec Ideal S1024x1 .f32) (p : FVec Ideal S1x1 .f32)
    (hmin : ∀ r : Fin 1024, stepMin (grid0.coords t) (xa V c t) (xb V c t) s (ix2 r 0)
      = (Finset.univ.filter fun j : Fin 8192 => j.val < 1024 * (t.val % 8 + 1)).inf
          fun j => Hausdorff.dist (cloudA V c) (cloudB V c) (bOf t) (rowOf t r) j)
    (hp : t.val % 64 ≠ 0 → p (ix2 0 0)
      = (Finset.univ.filter fun i : Fin 8192 => i.val < 1024 * (t.val % 64 / 8)).sup
          fun i => Finset.univ.inf fun j : Fin 8192 => Hausdorff.dist (cloudA V c) (cloudB V c) (bOf t) i j) :
    stepMax (grid0.coords t) (xa V c t) (xb V c t) s p (ix2 0 0)
      = (Finset.univ.filter fun i : Fin 8192 => i.val < 1024 * ((t.val % 64 + 1) / 8)).sup
          fun i => Finset.univ.inf fun j : Fin 8192 => Hausdorff.dist (cloudA V c) (cloudB V c) (bOf t) i j := by
  have hprev : (if cFirst (grid0.coords t) then k0_pay4 else p) (ix2 0 0)
      = (Finset.univ.filter fun i : Fin 8192 => i.val < 1024 * (t.val % 64 / 8)).sup
          fun i => Finset.univ.inf fun j : Fin 8192 => Hausdorff.dist (cloudA V c) (cloudB V c) (bOf t) i j := by
    by_cases h : t.val % 64 = 0
    · rw [if_pos ((hFirst t).mpr h), pay4_apply, sup_below_zero _ _ (by omega)]
    · rw [if_neg (fun hc => h ((hFirst t).mp hc))]; exact hp h
  unfold stepMax
  by_cases h7 : t.val % 8 = 7
  · rw [if_pos ((hColL t).mpr h7), pay2_apply, hprev]
    have hsup : (Finset.univ.sup fun r : Fin 1024 => stepMin (grid0.coords t) (xa V c t) (xb V c t) s (ix2 r 0))
        = Finset.univ.sup fun r : Fin 1024 => (fun i : Fin 8192 => Finset.univ.inf fun j : Fin 8192 =>
            Hausdorff.dist (cloudA V c) (cloudB V c) (bOf t) i j) (rowOf t r) :=
      Finset.sup_congr rfl fun r _ => by rw [hmin r, filter_all (t.val % 8 + 1) (by omega)]
    rw [hsup, show (t.val % 64 + 1) / 8 = t.val % 64 / 8 + 1 by omega]
    exact sup_adjoin (fun i : Fin 8192 => Finset.univ.inf fun j : Fin 8192 =>
        Hausdorff.dist (cloudA V c) (cloudB V c) (bOf t) i j) (t.val % 64 / 8) (by omega) (rowOf t)
      (fun r => by show 1024 * (t.val / 8 % 8) + r.val = 1024 * (t.val % 64 / 8) + r.val; omega)
  · rw [if_neg (fun hc => h7 ((hColL t).mp hc)), hprev, show (t.val % 64 + 1) / 8 = t.val % 64 / 8 by omega]

theorem acc_max_aux (c : Dev nD) : ∀ (n : ℕ) (hn : n < cfg0.N),
    (acc V c n hn).2 (ix2 0 0)
      = (Finset.univ.filter fun i : Fin 8192 => i.val < 1024 * ((n % 64 + 1) / 8)).sup
          fun i => Finset.univ.inf fun j : Fin 8192 => Hausdorff.dist (cloudA V c) (cloudB V c) (bOf ⟨n, hn⟩) i j := by
  intro n
  induction n with
  | zero =>
    intro hn
    exact stepMax_closed V c ⟨0, hn⟩ k0_pay5 k0_pay4 (fun r => acc_min V c ⟨0, hn⟩ r) (fun h => absurd rfl h)
  | succ n ih =>
    intro hn
    refine stepMax_closed V c ⟨n + 1, hn⟩ (acc V c n (Nat.lt_of_succ_lt hn)).1 (acc V c n (Nat.lt_of_succ_lt hn)).2
      (fun r => acc_min V c ⟨n + 1, hn⟩ r) (fun h => ?_)
    have h' : (n + 1) % 64 ≠ 0 := h
    rw [ih (Nat.lt_of_succ_lt hn)]
    have h1 : (n % 64 + 1) / 8 = (n + 1) % 64 / 8 := by omega
    have h2 : bOf ⟨n, Nat.lt_of_succ_lt hn⟩ = bOf ⟨n + 1, hn⟩ := by
      apply Fin.ext; show n / 64 = (n + 1) / 64; omega
    rw [h1, h2]

/-- The running maximum after point t. -/
theorem acc_max (c : Dev nD) (t : Fin cfg0.N) :
    (acc V c t.val t.isLt).2 (ix2 0 0)
      = (Finset.univ.filter fun i : Fin 8192 => i.val < 1024 * ((t.val % 64 + 1) / 8)).sup
          fun i => Finset.univ.inf fun j : Fin 8192 => Hausdorff.dist (cloudA V c) (cloudB V c) (bOf t) i j := by
  exact acc_max_aux V c t.val t.isLt

/-- At a batch's last point the output block holds the batch's directed distance. -/
theorem outAt_last (c : Dev nD) (t : Fin cfg0.N) (hL : t.val % 64 = 63) :
    outAt V c t (ix3 0 0 0) = directed (cloudA V c) (cloudB V c) (bOf t) := by
  unfold outAt
  rw [pay3_apply, acc_max, filter_all ((t.val % 64 + 1) / 8) (by omega)]
  rfl

end Cert.KernelIdeal.Pass0

end
-- ==== Proof.Arr0.lean ====
/-
  What the first pass leaves in its output array. The output window's block is one entry, (b, 0, 0) at every point of
  batch b, written back at the batch's last point (t % 64 = 63) and nowhere else; so the array of four entries ends
  holding, at (b, 0, 0), what the point 64 b + 63 stored: the batch's directed distance.
-/
import proofs.«107174_j11381663334571_1_alg».proof.Proof.Fold0
import Idealize.ShloMosaic.Lib.Pipeline.Value

set_option maxRecDepth 16384

noncomputable section

open scoped BigOperators

namespace Cert.KernelIdeal.Pass0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Hausdorff Cert.KernelIdeal.Pay

-- the core's buffer contents when the pass is entered, on the extended reals
variable (V : (c : Dev nD) → (b : Ref sig .tc) → Buf (Elt Ideal) ((c : Thread nD τ).loc b))

/-- The four directed distances as the output array. -/
def outArr (c : Dev nD) : (⟨3, ![4, 1, 1]⟩ : Shape).Idx → EReal :=
  fun j => directed (cloudA V c) (cloudB V c) (j 0)

/-- The output window's index map in closed form: block (t / 64, 0, 0) at point t. -/
theorem idx_out : ∀ t : Fin cfg0.N, win0_2.index t (0 : Fin 3) = t.val / 64 ∧ win0_2.index t (1 : Fin 3) = 0 ∧ win0_2.index t (2 : Fin 3) = 0 :=
  (by decide +kernel : ∀ t : Fin grid0.N, win0_2.index t (0 : Fin 3) = t.val / 64 ∧ win0_2.index t (1 : Fin 3) = 0 ∧ win0_2.index t (2 : Fin 3) = 0)

/-- A block of one entry has one index. -/
theorem idx_one (x : S1x1x1.Idx) : x = ix3 0 0 0 := by
  funext a; apply Fin.ext
  match a with
  | ⟨0, _⟩ => have h : (x 0).val < 1 := (x 0).isLt; show (x 0).val = 0; omega
  | ⟨1, _⟩ => have h : (x 1).val < 1 := (x 1).isLt; show (x 1).val = 0; omega
  | ⟨2, _⟩ => have h : (x 2).val < 1 := (x 2).isLt; show (x 2).val = 0; omega

/-- What a batch's last point writes back is its block of the four directed distances: the block's one entry sits
    at (t / 64, 0, 0) of the array, and holds the running maximum there, which is the batch's directed distance. -/
theorem flushed_out (c : Dev nD) (t : Fin cfg0.N) (hf : (cfg0.win 2).flush t = true) :
    (dat V c).flushed 2 t = ((cfg0.win 2).blk t).view.read (Elt Ideal) (outArr V c) := by
  show (cfg0.win 2).cut (grid0.coords t) ((dat V c).after 2 t) = _
  rw [after_2]
  funext j
  rw [View.read_apply]
  show outAt V c t ((cfg0.win 2).xinj (grid0.coords t) j) = outArr V c (((cfg0.win 2).blk t).view.emb j)
  rw [idx_one ((cfg0.win 2).xinj (grid0.coords t) j), outAt_last V c t ((flush0_2 t).mp hf)]
  show directed (cloudA V c) (cloudB V c) (bOf t) = directed (cloudA V c) (cloudB V c) ((((cfg0.win 2).blk t).view.emb j) 0)
  congr 1
  apply Fin.ext
  obtain ⟨e0, e1, e2⟩ := idx_out t
  have hj : (j 0).val < 1 := (j 0).isLt
  show t.val / 64 = win0_2.index t (0 : Fin 3) * 1 + 1 * (j 0).val
  omega

/-- An index of the array is in point t's block iff each coordinate is in the block's range on its axis. -/
theorem mem_blk_out (t : Fin cfg0.N) (i : S4x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v0).slice (win0_2.rect t)).set ↔ _
  rw [View.set_slice_whole, Rect.mem_set_unit]
  exact Iff.rfl

theorem arrAt_out (c : Dev nD) : (dat V c).arrAt 2 cfg0.N = outArr V c := by
  refine (dat V c).arrAt_eq_of_cover 2 (outArr V c) (fun t hf => flushed_out V c t hf) ?_
  intro i
  -- entry (b, 0, 0) is in the block of the batch's last point 64 b + 63
  have hi0 : (i 0).val < 4 := (i 0).isLt
  have hi1 : (i 1).val < 1 := (i 1).isLt
  have hi2 : (i 2).val < 1 := (i 2).isLt
  have hN : cfg0.N = 256 := N_0
  have hlt : 64 * (i 0).val + 63 < cfg0.N := by omega
  refine ⟨⟨64 * (i 0).val + 63, hlt⟩, (flush0_2 _).mpr (by show (64 * (i 0).val + 63) % 64 = 63; omega), ?_⟩
  rw [mem_blk_out]
  obtain ⟨e0, e1, e2⟩ := idx_out ⟨64 * (i 0).val + 63, hlt⟩
  have e0' : win0_2.index ⟨64 * (i 0).val + 63, hlt⟩ (0 : Fin 3) = (64 * (i 0).val + 63) / 64 := e0
  intro a
  match a with
  | ⟨0, _⟩ =>
    show win0_2.index ⟨64 * (i 0).val + 63, hlt⟩ (0 : Fin 3) * 1 ≤ (i 0).val ∧ (i 0).val < win0_2.index ⟨64 * (i 0).val + 63, hlt⟩ (0 : Fin 3) * 1 + 1
    omega
  | ⟨1, _⟩ =>
    show win0_2.index ⟨64 * (i 0).val + 63, hlt⟩ (1 : Fin 3) * 1 ≤ (i 1).val ∧ (i 1).val < win0_2.index ⟨64 * (i 0).val + 63, hlt⟩ (1 : Fin 3) * 1 + 1
    omega
  | ⟨2, _⟩ =>
    show win0_2.index ⟨64 * (i 0).val + 63, hlt⟩ (2 : Fin 3) * 1 ≤ (i 2).val ∧ (i 2).val < win0_2.index ⟨64 * (i 0).val + 63, hlt⟩ (2 : Fin 3) * 1 + 1
    omega

end Cert.KernelIdeal.Pass0

end
-- ==== Proof.Final.lean ====
/-
  The program's result on the extended reals. The last host operations leave in the result buffer the elementwise
  maximum of the two passes' output arrays, each reshaped from [4, 1, 1] to [4]; a reshape keeps every entry, so at
  batch b that is the larger of the two passes' directed distances. The first pass runs from the first argument to the
  second, the second pass from the second to the first (no item writes an argument, so the second pass finds them as
  launched): the result at b is the symmetric distance of the two arguments.
-/
import proofs.«107174_j11381663334571_1_alg».proof.Proof.Launch
import proofs.«107174_j11381663334571_1_alg».proof.Proof.Arr0
import proofs.«107174_j11381663334571_1_alg».proof.Proof.Arr1
import Idealize.ShloMosaic.Lib.StableHlo.Run
import Idealize.ShloMosaic.Lib.ValueLayout

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Hausdorff

variable (m : (ℓ : Loc nD τ sig) → Buf (Elt Ideal) ℓ) (ρ : Dev nD → PrngReg)

/-- A reshape from [4, 1, 1] to [4] keeps every entry: at b it reads its operand at (b, 0, 0). -/
theorem reshape_apply (v : (⟨3, ![4, 1, 1]⟩ : Shape).Idx → EReal)
    (h : (⟨3, ![4, 1, 1]⟩ : Shape).ShapeCasts ⟨1, ![4]⟩) (b : Fin 4) :
    shapeCast ⟨1, ![4]⟩ v h (ix1 b) = v (ix3 b 0 0) := by
  refine shapeCast_apply v h (ix1 b) (ix3 b 0 0) ?_
  rw [Shape.rowMajor_val_three, Shape.rowMajor_val_one]
  show (b.val * 1 + 0) * 1 + 0 = b.val
  omega

/-- The first argument reaches the second pass as launched. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := StableHlo.after_of_writes_sub hostOps1 _ hostOps1_writes (by decide)
    _ = W0 m ρ c (Proc.devRef .tc main_arg0) := W1_in m ρ c 0 rfl
    _ = m ((c : Thread nD τ).loc main_arg0) := rfl

/-- The second argument reaches the second pass as launched. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := StableHlo.after_of_writes_sub hostOps1 _ hostOps1_writes (by decide)
    _ = W0 m ρ c (Proc.devRef .tc main_arg1) := W1_in m ρ c 1 rfl
    _ = m ((c : Thread nD τ).loc main_arg1) := rfl

/-- The first pass's output array: the directed distances from the first argument to the second. -/
theorem W1_main_v0 (c : Dev nD) : W1 m ρ c (Proc.devRef .tc main_v0) = Pass0.outArr (V0 m ρ) c :=
  (W1_arr m ρ c 2).trans (Pass0.arrAt_out _ c)

/-- The second pass's output array: the directed distances from the second argument to the first. -/
theorem W3_main_v2 (c : Dev nD) : W3 m ρ c (Proc.devRef .tc main_v2) = Pass1.outArr (V2 m ρ) c :=
  (W3_arr m ρ c 2).trans (Pass1.arrAt_out _ c)

/-- The result buffer is the maximum of the first pass's reshaped output, as the second pass left it, and the second
    pass's reshaped output. -/
theorem W4_main_v4 (c : Dev nD) :
    @Eq (FVec Ideal S4 .f32) (W4 m ρ c (Proc.devRef .tc main_v4))
      (maximumf (W3 m ρ c (Proc.devRef .tc main_v1))
        (fun i => shapeCast S4 (W3 m ρ c (Proc.devRef .tc main_v2)) shapeCasts_S4x1x1_S4 i)) := by
  show StableHlo.after hostOps2 (W3 m ρ c) (Proc.devRef .tc main_v4) = _
  after_results
  rfl

/-- The first reshape's result: the first pass's output, reshaped. -/
theorem W2_main_v1 (c : Dev nD) :
    W2 m ρ c (Proc.devRef .tc main_v1)
      = (fun i => shapeCast S4 (W1 m ρ c (Proc.devRef .tc main_v0)) shapeCasts_S4x1x1_S4 i) := by
  show StableHlo.after hostOps1 (W1 m ρ c) (Proc.devRef .tc main_v1) = _
  after_results
  rfl

/-- The result buffer's final contents, at batch b: the symmetric distance of the two arguments. -/
theorem result_apply (c : Dev nD) (b : Fin 4) :
    W4 m ρ c (Proc.devRef .tc main_v4) (ix1 b)
      = hd (m ((c : Thread nD τ).loc main_arg0)) (m ((c : Thread nD τ).loc main_arg1)) b := by
  rw [W4_main_v4, W3_of_ne m ρ c main_v1 (by decide), W2_main_v1, W1_main_v0, W3_main_v2]
  rw [maximumf_apply]
  show max (shapeCast ⟨1, ![4]⟩ (Pass0.outArr (V0 m ρ) c) shapeCasts_S4x1x1_S4 (ix1 b))
      (shapeCast ⟨1, ![4]⟩ (Pass1.outArr (V2 m ρ) c) shapeCasts_S4x1x1_S4 (ix1 b)) = _
  rw [reshape_apply, reshape_apply]
  show max (directed (W0 m ρ c (Proc.devRef .tc main_arg0)) (W0 m ρ c (Proc.devRef .tc main_arg1)) b)
      (directed (W2 m ρ c (Proc.devRef .tc main_arg1)) (W2 m ρ c (Proc.devRef .tc main_arg0)) b) = _
  rw [W2_main_arg0, W2_main_arg1]
  rfl

end Cert.KernelIdeal.Whole

end
-- ==== Proof.RefImports.lean ====
/- The reference's run and its reads at an index, gathered for the modules that compare it with the specification. -/
import proofs.«107174_j11381663334571_1_alg».proof.Proof.Gen.ReferenceIdeal.Run
import proofs.«107174_j11381663334571_1_alg».proof.Proof.Gen.ReferenceIdeal.Read
-- ==== Proof.RefValue.lean ====
/-
  The reference's result is the symmetric Hausdorff distance of the specification. The reference forms the matrix
  of all distances once: the squared lengths of both clouds (a sum over the three coordinates), the inner products
  (a product contracted over the coordinate axis, batched over the first), |x|² + |y|² - 2 x·y clamped at zero, and its
  square root; then the smallest entry of every row and the largest of those, the smallest entry of every column and
  the largest of those, and the larger of the two. A fold of min from +inf over an axis is the infimum over that axis,
  a fold of max from -inf the supremum; the column direction is the directed distance from the second cloud to the
  first because the distance matrix is symmetric in the two clouds.
-/
import proofs.«107174_j11381663334571_1_alg».proof.Proof.RefImports
import proofs.«107174_j11381663334571_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefValue

open Idealize.ShloMosaic Idealize.ShloMosaic.ValueIdx Cert.ReferenceIdeal Cert.ReferenceIdeal.Gen Cert.Hausdorff

/-- The two clouds' type: four batches of 8192 points in three coordinates, on the extended reals. -/
abbrev Buf3 : Type := (⟨S4x8192x3, .f32⟩ : BufTy).Contents (Elt Ideal)

/-- The float word of +inf is the top of the extended reals. -/
theorem top_word : Ideal.ofBits .f32 0x7F800000#32 = (⊤ : EReal) := by simp [Ideal.ofBits, Ideal.ieee]
/-- The float word of -inf is the bottom of the extended reals. -/
theorem bot_word : Ideal.ofBits .f32 0xFF800000#32 = (⊥ : EReal) := by simp [Ideal.ofBits, Ideal.ieee]

/-- A fold of min from the top over a whole index type is the infimum over it. -/
theorem fold_min_top {ι : Type} [Fintype ι] (g : ι → EReal) :
    (Finset.univ : Finset ι).fold (FloatOps.minimumf (F := Ideal) (φ := .f32)) (⊤ : EReal) g = Finset.univ.inf g := by
  unfold Finset.inf
  rfl

/-- A fold of max from the bottom over a whole index type is the supremum over it. -/
theorem fold_max_bot {ι : Type} [Fintype ι] (g : ι → EReal) :
    (Finset.univ : Finset ι).fold (FloatOps.maximumf (F := Ideal) (φ := .f32)) (⊥ : EReal) g = Finset.univ.sup g := by
  unfold Finset.sup
  rfl

/-- The matrix entry: the square root of |x0[b,n]|² + |x1[b,m]|² - 2 x0[b,n]·x1[b,m] clamped at zero is the
    specification's distance of point n of the first cloud from point m of the second. -/
theorem entry (x0 x1 : Buf3) (b : Fin 4) (n m : Fin 8192) :
    Read.val_main_v15 (F := Ideal) x0 x1 (ix3 b n m) = Hausdorff.dist x0 x1 b n m := by
  simp only [Read.val_main_v15_apply, Read.val_main_v14_apply, Read.val_main_v12_apply, Read.val_main_v9_apply,
    Read.val_main_v7_apply, Read.val_main_v5_apply, Read.val_main_v1_apply, Read.val_main_v0_apply,
    Read.val_main_v8_apply, Read.val_main_v6_apply, Read.val_main_v3_apply, Read.val_main_v2_apply,
    Read.val_main_v11_apply, Read.val_main_v10_apply, Read.val_main_v4_apply, Read.val_main_v13_apply,
    Read.val_main_cst_apply, Read.val_main_cst_0_apply, Read.val_main_cst_1_apply, Read.val_main_cst_2_apply]
  have e1 : ∀ k : Fin 3, Read.idx_main_v1 (Read.idx_main_v5 (Read.idx_main_v7 (ix3 b n m))) k = ix3 b n k :=
    fun k => funext fun a => Fin.ext (by match a with | ⟨0, _⟩ => rfl | ⟨1, _⟩ => rfl | ⟨2, _⟩ => rfl)
  have e2 : ∀ k : Fin 3, Read.idx_main_v3 (Read.idx_main_v6 (Read.idx_main_v8 (ix3 b n m))) k = ix3 b m k :=
    fun k => funext fun a => Fin.ext (by match a with | ⟨0, _⟩ => rfl | ⟨1, _⟩ => rfl | ⟨2, _⟩ => rfl)
  have e3 : ∀ k : Fin 3, Read.lidx_main_v4 (ix3 b n m) k = ix3 b n k :=
    fun k => funext fun a => Fin.ext (by match a with | ⟨0, _⟩ => rfl | ⟨1, _⟩ => rfl | ⟨2, _⟩ => rfl)
  have e4 : ∀ k : Fin 3, Read.ridx_main_v4 (ix3 b n m) k = ix3 b m k :=
    fun k => funext fun a => Fin.ext (by match a with | ⟨0, _⟩ => rfl | ⟨1, _⟩ => rfl | ⟨2, _⟩ => rfl)
  simp only [e1, e2, e3, e4, Ideal.addf_def, Ideal.subf_def, Ideal.mulf_def, Ideal.maximumf_def,
    Ideal.hostUnary_sqrt_def, Ideal.ofBits_def]
  unfold Hausdorff.dist Hausdorff.sq Hausdorff.dot
  simp only [Ideal.ofBits_zero_f32, zero_add]

/-- The smallest entry of row n: the infimum over the second cloud's points. -/
theorem v16_at (x0 x1 : Buf3) (b : Fin 4) (n : Fin 8192) :
    Read.val_main_v16 (F := Ideal) x0 x1 (ix2 b n) = Finset.univ.inf fun m : Fin 8192 => Hausdorff.dist x0 x1 b n m := by
  have hR : S4x8192x8192.Reduces [2] S4x8192 := by decide
  unfold Read.val_main_v16
  rw [Host.reduce_eq_fold_single _ _ _ reducesTo_S4x8192x8192_S4x8192_d2 hR]
  rw [Read.val_main_cst_3_apply, Ideal.ofBits_def, top_word]
  have e : (Read.val_main_v15 (F := Ideal) x0 x1 ∘ hR.lift (ix2 b n)) = fun m : Fin (S4x8192x8192.size 2) => Hausdorff.dist x0 x1 b n m :=
    funext fun m => by
      rw [Function.comp_apply, show hR.lift (ix2 b n) m = ix3 b n m from
        funext fun a => Fin.ext (by match a with | ⟨0, _⟩ => rfl | ⟨1, _⟩ => rfl | ⟨2, _⟩ => rfl)]
      exact entry x0 x1 b n m
  rw [e]
  exact fold_min_top _

/-- The smallest entry of column m: the infimum over the first cloud's points. -/
theorem v18_at (x0 x1 : Buf3) (b : Fin 4) (m : Fin 8192) :
    Read.val_main_v18 (F := Ideal) x0 x1 (ix2 b m) = Finset.univ.inf fun n : Fin 8192 => Hausdorff.dist x0 x1 b n m := by
  have hR : S4x8192x8192.Reduces [1] S4x8192 := by decide
  unfold Read.val_main_v18
  rw [Host.reduce_eq_fold_single _ _ _ reducesTo_S4x8192x8192_S4x8192_d1 hR]
  rw [Read.val_main_cst_5_apply, Ideal.ofBits_def, top_word]
  have e : (Read.val_main_v15 (F := Ideal) x0 x1 ∘ hR.lift (ix2 b m)) = fun n : Fin (S4x8192x8192.size 1) => Hausdorff.dist x0 x1 b n m :=
    funext fun n => by
      rw [Function.comp_apply, show hR.lift (ix2 b m) n = ix3 b n m from
        funext fun a => Fin.ext (by match a with | ⟨0, _⟩ => rfl | ⟨1, _⟩ => rfl | ⟨2, _⟩ => rfl)]
      exact entry x0 x1 b n m
  rw [e]
  exact fold_min_top _

/-- The largest of the row minima is the directed distance from the first cloud to the second. -/
theorem v17_at (x0 x1 : Buf3) (b : Fin 4) :
    Read.val_main_v17 (F := Ideal) x0 x1 (ix1 b) = directed x0 x1 b := by
  have hR : S4x8192.Reduces [1] S4 := by decide
  unfold Read.val_main_v17
  rw [Host.reduce_eq_fold_single _ _ _ reducesTo_S4x8192_S4_d1 hR]
  rw [Read.val_main_cst_4_apply, Ideal.ofBits_def, bot_word]
  have e : (Read.val_main_v16 (F := Ideal) x0 x1 ∘ hR.lift (ix1 b))
      = fun n : Fin (S4x8192.size 1) => Finset.univ.inf fun m : Fin 8192 => Hausdorff.dist x0 x1 b n m :=
    funext fun n => by
      rw [Function.comp_apply, show hR.lift (ix1 b) n = ix2 b n from
        funext fun a => Fin.ext (by match a with | ⟨0, _⟩ => rfl | ⟨1, _⟩ => rfl)]
      exact v16_at x0 x1 b n
  rw [e]
  exact fold_max_bot _

/-- The largest of the column minima is the directed distance from the second cloud to the first. -/
theorem v19_at (x0 x1 : Buf3) (b : Fin 4) :
    Read.val_main_v19 (F := Ideal) x0 x1 (ix1 b) = directed x1 x0 b := by
  have hR : S4x8192.Reduces [1] S4 := by decide
  unfold Read.val_main_v19
  rw [Host.reduce_eq_fold_single _ _ _ reducesTo_S4x8192_S4_d1 hR]
  rw [Read.val_main_cst_6_apply, Ideal.ofBits_def, bot_word]
  have e : (Read.val_main_v18 (F := Ideal) x0 x1 ∘ hR.lift (ix1 b))
      = fun m : Fin (S4x8192.size 1) => Finset.univ.inf fun n : Fin 8192 => Hausdorff.dist x0 x1 b n m :=
    funext fun m => by
      rw [Function.comp_apply, show hR.lift (ix1 b) m = ix2 b m from
        funext fun a => Fin.ext (by match a with | ⟨0, _⟩ => rfl | ⟨1, _⟩ => rfl)]
      exact v18_at x0 x1 b m
  rw [e, directed_swap x0 x1 b]
  exact fold_max_bot _

/-- The reference's result, read at batch b, is the specification's symmetric distance of its two arguments. -/
theorem result_eq (x0 x1 : (⟨S4x8192x3, .f32⟩ : BufTy).Contents (Elt Ideal)) (b : Fin 4) :
    Cert.ReferenceIdeal.Read.val_main_v20 (F := Ideal) x0 x1 (ix1 b) = hd x0 x1 b := by
  rw [Read.val_main_v20_apply, Ideal.maximumf_def, v17_at, v19_at]
  rfl

end Cert.ReferenceIdeal.RefValue

end
-- ==== Proof.lean ====
/-
  The certificate. The kernel computes the symmetric Hausdorff distance of two clouds of 8192 points per batch in two
  directed passes over a 4 x 8 x 8 grid of 1024 x 1024 tiles of the distance matrix, keeping a column of running row
  minima and one running maximum between grid points; the reference forms the whole distance matrix and reduces it
  along rows and along columns. On the extended reals both are, at batch b,
      max (max over n of min over m of d(x_n, y_m)) (max over m of min over n of d(y_m, x_n)),
  with d the clamped expansion distance sqrt (max (|p|² + |q|² - 2 p·q) 0): the kernel's tiling only regroups the
  minima and maxima, its bf16 casts are the identity there, and the exchanged clouds of the second pass meet the
  reference's column direction because addition and multiplication commute. No finiteness of the inputs is used.
  The three programs run to the end without a fault and leave their arguments unchanged: the kernel's two passes by
  the pipeline's launch over the per-point triple of the kernel body (once at the word level, once on the extended
  reals), the reference by its run read back operation by operation.
-/
import proofs.«107174_j11381663334571_1_alg».proof.Defs
import proofs.«107174_j11381663334571_1_alg».proof.Proof.Gen.Kernel
import proofs.«107174_j11381663334571_1_alg».proof.Proof.Gen.KernelIdeal
import proofs.«107174_j11381663334571_1_alg».proof.Proof.Gen.ReferenceIdeal
import proofs.«107174_j11381663334571_1_alg».proof.Proof.Gen.Pre_finite_inputs
import proofs.«107174_j11381663334571_1_alg».proof.Proof.BitsLaunch
import proofs.«107174_j11381663334571_1_alg».proof.Proof.Launch
import proofs.«107174_j11381663334571_1_alg».proof.Proof.Final
import proofs.«107174_j11381663334571_1_alg».proof.Proof.RefImports
import proofs.«107174_j11381663334571_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments. -/
theorem frame_kernel : Cert.frame_Kernel (hKernel := Cert.Kernel.Gen.facts) (hPre_finite_inputs := Cert.Pre_finite_inputs.Gen.facts) :=
  fun m ρ _ => Cert.Kernel.Whole.frame (F := Bits) m ρ

/-- The idealized kernel runs and keeps its arguments. -/
theorem frame_kernelIdeal : Cert.frame_KernelIdeal (hKernelIdeal := Cert.KernelIdeal.Gen.facts) (hPre_finite_inputs := Cert.Pre_finite_inputs.Gen.facts) :=
  fun m ρ _ => Cert.KernelIdeal.Whole.frame (F := Ideal) m ρ

/-- The reference runs and keeps its arguments: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the symmetric distance of the arguments
    in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun j => Cert.Hausdorff.hd (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (j 0), ?_, ?_⟩
  · refine (θ_run Cert.KernelIdeal.defs _ _).mono (fun r h c => ⟨?_, ?_, ?_⟩) (Cert.KernelIdeal.Whole.run_all (F := Ideal) m ρ)
    · refine (h c _ (Cert.KernelIdeal.Whole.mem_uc Cert.KernelIdeal.main_v4 (by decide))).trans (funext fun j => ?_)
      rw [eq_ix1 j]
      exact Cert.KernelIdeal.Whole.result_apply m ρ c (j 0)
    · exact (h c _ (Cert.KernelIdeal.Whole.mem_uc Cert.KernelIdeal.main_arg0 (by decide))).trans (Cert.KernelIdeal.Whole.W4_main_arg0 m ρ c)
    · exact (h c _ (Cert.KernelIdeal.Whole.mem_uc Cert.KernelIdeal.main_arg1 (by decide))).trans (Cert.KernelIdeal.Whole.W4_main_arg1 m ρ c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, (hagree c).1, (hagree c).2]
    funext j
    rw [eq_ix1 j]
    exact Cert.ReferenceIdeal.RefValue.result_eq _ _ (j 0)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
